-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S1x4096 .f32 .bf16
  ∧ IdealRules.truncf_extf.Statement Cert.KernelIdeal.S1x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8_2)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_2) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S1x1 : Shape := ⟨2, ![1, 1]⟩
abbrev S1x1x4096 : Shape := ⟨3, ![1, 1, 4096]⟩
abbrev S4096x8192 : Shape := ⟨2, ![4096, 8192]⟩
abbrev S4096 : Shape := ⟨1, ![4096]⟩
abbrev S16384x4096 : Shape := ⟨2, ![16384, 4096]⟩
abbrev S16384 : Shape := ⟨1, ![16384]⟩
abbrev S1x4096 : Shape := ⟨2, ![1, 4096]⟩
abbrev S1 : Shape := ⟨1, ![1]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S1x1x4096 : S_.BroadcastsInDim S1x1x4096 (![] : Fin 0 → Fin S1x1x4096.rank)
  reducesTo_S1x1x4096_S_d0_1_2 : S1x1x4096.ReducesTo [0, 1, 2] S_
  bcast_S_S4096x8192 : S_.BroadcastsInDim S4096x8192 (![] : Fin 0 → Fin S4096x8192.rank)
  reducesTo_S4096x8192_S_d0_1 : S4096x8192.ReducesTo [0, 1] S_
  bcast_S_S4096 : S_.BroadcastsInDim S4096 (![] : Fin 0 → Fin S4096.rank)
  reducesTo_S4096_S_d0 : S4096.ReducesTo [0] S_
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S16384 .f32) (main_arg12 : FVec F S1x4096 .f32) (main_arg13 : FVec F S1 .f32) (main_v48 : IVec S_ 1) (main_v49 : FVec F S16384x4096 .f32) (main_v50 : FVec F S16384x4096 .f32) : IVec S_ 1 :=
  let main_v51 : IVec S16384x4096 1 := cmpf .olt main_v49 main_v50
  let main_c_19 : IVec S_ 1 := constantI S_ 1 1#1
  let main_v52 : IVec S_ 1 := (fun x v => Host.reduce IntOp.andi x v reducesTo_S16384x4096_S_d0_1 h_S_) main_v51 main_c_19
  let main_v53 : IVec S_ 1 := andi main_v48 main_v52
  let main_v54 : FVec F S16384 .f32 := Host.absf main_arg11
  let main_cst_20 : FVec F S_ .f32 := constant S_ .f32 0x7F800000#32
  let main_v55 : FVec F S16384 .f32 := broadcastInDim S16384 ![] bcast_S_S16384 main_cst_20
  let main_v56 : IVec S16384 1 := cmpf .olt main_v54 main_v55
  let main_c_21 : IVec S_ 1 := constantI S_ 1 1#1
  let main_v57 : IVec S_ 1 := (fun x v => Host.reduce IntOp.andi x v reducesTo_S16384_S_d0 h_S_) main_v56 main_c_21
  let main_v58 : IVec S_ 1 := andi main_v53 main_v57
  let main_v59 : FVec F S1x4096 .f32 := Host.absf main_arg12
  let main_cst_22 : FVec F S_ .f32 := constant S_ .f32 0x7F800000#32
  let main_v60 : FVec F S1x4096 .f32 := broadcastInDim S1x4096 ![] bcast_S_S1x4096 main_cst_22
  let main_v61 : IVec S1x4096 1 := cmpf .olt main_v59 main_v60
  let main_c_23 : IVec S_ 1 := constantI S_ 1 1#1
  let main_v62 : IVec S_ 1 := (fun x v => Host.reduce IntOp.andi x v reducesTo_S1x4096_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S4096 .f32) (main_arg8 : FVec F S16384x4096 .f32) (main_arg9 : FVec F S16384 .f32) (main_arg10 : FVec F S16384x4096 .f32) (main_arg11 : FVec F S16384 .f32) (main_arg12 : FVec F S1x4096 .f32) (main_arg13 : FVec F S1 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S16384x4096 .f32 := Host.absf main_arg8
  let main_cst_14 : FVec F S_ .f32 := constant S_ .f32 0x7F800000#32
  let main_v40 : FVec F S16384x4096 .f32 := broadcastInDim S16384x4096 ![] bcast_S_S16384x4096 main_cst_14
  let main_v41 : IVec S16384x4096 1 := cmpf .olt main_v39 main_v40
  let main_c_15 : IVec S_ 1 := constantI S_ 1 1#1
  let main_v42 : IVec S_ 1 := (fun x v => Host.reduce IntOp.andi x v reducesTo_S16384x4096_S_d0_1 h_S_) main_v41 main_c_15
  let main_v43 : IVec S_ 1 := andi main_v38 main_v42
  let main_v44 : FVec F S16384 .f32 := Host.absf main_arg9
  let main_cst_16 : FVec F S_ .f32 := constant S_ .f32 0x7F800000#32
  let main_v45 : FVec F S16384 .f32 := broadcastInDim S16384 ![] bcast_S_S16384 main_cst_16
  let main_v46 : IVec S16384 1 := cmpf .olt main_v44 main_v45
  let main_c_17 : IVec S_ 1 := constantI S_ 1 1#1
  let main_v47 : IVec S_ 1 := (fun x v => Host.reduce IntOp.andi x v reducesTo_S16384_S_d0 h_S_) main_v46 main_c_17
  let main_v48 : IVec S_ 1 := andi main_v43 main_v47
  let main_v49 : FVec F S16384x4096 .f32 := Host.absf main_arg10
  let main_cst_18 : FVec F S_ .f32 := constant S_ .f32 0x7F800000#32
  let main_v50 : FVec F S16384x4096 .f32 := broadcastInDim S16384x4096 ![] bcast_S_S16384x4096 main_cst_18
  fn_part3 (F := F) main_arg11 main_arg12 main_arg13 main_v48 main_v49 main_v50

def fn_part1 {F : FTy → Type} [FloatOps F] (main_arg4 : FVec F S1x1 .f32) (main_arg5 : FVec F S1x1 .f32) (main_arg6 : FVec F S4096x8192 .f32) (main_arg7 : FVec F S4096 .f32) (main_arg8 : FVec F S16384x4096 .f32) (main_arg9 : FVec F S16384 .f32) (main_arg10 : FVec F S16384x4096 .f32) (main_arg11 : FVec F S16384 .f32) (main_arg12 : FVec F S1x4096 .f32) (main_arg13 : FVec F S1 .f32) (main_v13 : IVec S_ 1) (main_v16 : IVec S1x1x4096 1) : IVec S_ 1 :=
  let main_c_5 : IVec S_ 1 := constantI S_ 1 1#1
  let main_v17 : IVec S_ 1 := (fun x v => Host.reduce IntOp.andi x v reducesTo_S1x1x4096_S_d0_1_2 h_S_) main_v16 main_c_5
  let main_v18 : IVec S_ 1 := andi main_v13 main_v17
  let main_v19 : FVec F S1x1 .f32 := Host.absf main_arg4
  let main_cst_6 : FVec F S_ .f32 := constant S_ .f32 0x7F800000#32
  let main_v20 : FVec F S1x1 .f32 := broadcastInDim S1x1 ![] bcast_S_S1x1 main_cst_6
  let main_v21 : IVec S1x1 1 := cmpf .olt main_v19 main_v20
  let main_c_7 : IVec S_ 1 := constantI S_ 1 1#1
  let main_v22 : IVec S_ 1 := (fun x v => Host.reduce IntOp.andi x v reducesTo_S1x1_S_d0_1 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S4096x8192 .f32 := Host.absf main_arg6
  let main_cst_10 : FVec F S_ .f32 := constant S_ .f32 0x7F800000#32
  let main_v30 : FVec F S4096x8192 .f32 := broadcastInDim S4096x8192 ![] bcast_S_S4096x8192 main_cst_10
  let main_v31 : IVec S4096x8192 1 := cmpf .olt main_v29 main_v30
  let main_c_11 : IVec S_ 1 := constantI S_ 1 1#1
  let main_v32 : IVec S_ 1 := (fun x v => Host.reduce IntOp.andi x v reducesTo_S4096x8192_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1x8192 .f32) (main_arg1 : FVec F S1x1 .f32) (main_arg2 : FVec F S1x1x4096 .f32) (main_arg3 : FVec F S1x1x4096 .f32) (main_arg4 : FVec F S1x1 .f32) (main_arg5 : FVec F S1x1 .f32) (main_arg6 : FVec F S4096x8192 .f32) (main_arg7 : FVec F S4096 .f32) (main_arg8 : FVec F S16384x4096 .f32) (main_arg9 : FVec F S16384 .f32) (main_arg10 : FVec F S16384x4096 .f32) (main_arg11 : FVec F S16384 .f32) (main_arg12 : FVec F S1x4096 .f32) (main_arg13 : FVec F S1 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1x1x4096 .f32 := Host.absf main_arg2
  let main_cst_2 : FVec F S_ .f32 := constant S_ .f32 0x7F800000#32
  let main_v10 : FVec F S1x1x4096 .f32 := broadcastInDim S1x1x4096 ![] bcast_S_S1x1x4096 main_cst_2
  let main_v11 : IVec S1x1x4096 1 := cmpf .olt main_v9 main_v10
  let main_c_3 : IVec S_ 1 := constantI S_ 1 1#1
  let main_v12 : IVec S_ 1 := (fun x v => Host.reduce IntOp.andi x v reducesTo_S1x1x4096_S_d0_1_2 h_S_) main_v11 main_c_3
  let main_v13 : IVec S_ 1 := andi main_v8 main_v12
  let main_v14 : FVec F S1x1x4096 .f32 := Host.absf main_arg3
  let main_cst_4 : FVec F S_ .f32 := constant S_ .f32 0x7F800000#32
  let main_v15 : FVec F S1x1x4096 .f32 := broadcastInDim S1x1x4096 ![] bcast_S_S1x1x4096 main_cst_4
  let main_v16 : IVec S1x1x4096 1 := cmpf .olt main_v14 main_v15
  fn_part1 (F := F) main_arg4 main_arg5 main_arg6 main_arg7 main_arg8 main_arg9 main_arg10 main_arg11 main_arg12 main_arg13 main_v13 main_v16
-- ==== Kernel.lean ====
abbrev S1x8192 : Shape := ⟨2, ![1, 8192]⟩
abbrev S1x1 : Shape := ⟨2, ![1, 1]⟩
abbrev S1x1x4096 : Shape := ⟨3, ![1, 1, 4096]⟩
abbrev S4096x8192 : Shape := ⟨2, ![4096, 8192]⟩
abbrev S4096 : Shape := ⟨1, ![4096]⟩
abbrev S16384x4096 : Shape := ⟨2, ![16384, 4096]⟩
abbrev S16384 : Shape := ⟨1, ![16384]⟩
abbrev S1x4096 : Shape := ⟨2, ![1, 4096]⟩
abbrev S1 : Shape := ⟨1, ![1]⟩
abbrev S1x16384 : Shape := ⟨2, ![1, 16384]⟩
abbrev S256x8192 : Shape := ⟨2, ![256, 8192]⟩
abbrev S1x256 : Shape := ⟨2, ![1, 256]⟩
abbrev S256x4096 : Shape := ⟨2, ![256, 4096]⟩

abbrev nBuf : Space → Nat
  | .hbm => 28
  | .vmem => 30
  | .smem => 0
  | _ => 0

abbrev bufTy : (tb : Table) → Fin (tcTables nBuf tb) → BufTy
  | .hbm, ⟨0, _⟩ => ⟨S1x8192, .f32⟩
  | .hbm, ⟨1, _⟩ => ⟨S1x1, .f32⟩
  | .hbm, ⟨2, _⟩ => ⟨S1x1x4096, .f32⟩
  | .hbm, ⟨3, _⟩ => ⟨S1x1x4096, .f32⟩
  | .hbm, ⟨4, _⟩ => ⟨S1x1, .f32⟩
  | .hbm, ⟨5, _⟩ => ⟨S1x1, .f32⟩
  | .hbm, ⟨6, _⟩ => ⟨S4096x8192, .f32⟩
  | .hbm, ⟨7, _⟩ => ⟨S4096, .f32⟩
  | .hbm, ⟨8, _⟩ => ⟨S16384x4096, .f32⟩
  | .hbm, ⟨9, _⟩ => ⟨S16384, .f32⟩
  | .hbm, ⟨10, _⟩ => ⟨S16384x4096, .f32⟩
  | .hbm, ⟨11, _⟩ => ⟨S16384, .f32⟩
  | .hbm, ⟨12, _⟩ => ⟨S1x4096, .f32⟩
  | .hbm, ⟨13, _⟩ => ⟨S1, .f32⟩
  | .hbm, ⟨14, _⟩ => ⟨S1x4096, .f32⟩
  | .hbm, ⟨15, _⟩ => ⟨S1x16384, .f32⟩
  | .hbm, ⟨16, _⟩ => ⟨S1x16384, .f32⟩
  | .hbm, ⟨17, _⟩ => ⟨S1x1, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x16384, .f32⟩
  | .hbm, ⟨22, _⟩ => ⟨S1x4096, .f32⟩
  | .hbm, ⟨23, _⟩ => ⟨S1x4096, .f32⟩
  | .hbm, ⟨24, _⟩ => ⟨S1x1, .f32⟩
  | .hbm, ⟨25, _⟩ => ⟨S1x1, .f32⟩
  | .hbm, ⟨26, _⟩ => ⟨S1x1x4096, .f32⟩
  | .hbm, ⟨27, _⟩ => ⟨S1x1x4096, .f32⟩
  | .local _ .vmem, ⟨0, _⟩ => ⟨S1x8192, .f32⟩
  | .local _ .vmem, ⟨1, _⟩ => ⟨S256x8192, .f32⟩
  | .local _ .vmem, ⟨2, _⟩ => ⟨S256x8192, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x16384, .f32⟩
  | .local _ .vmem, ⟨20, _⟩ => ⟨S1x4096, .f32⟩
  | .local _ .vmem, ⟨21, _⟩ => ⟨S1x4096, .f32⟩
  | .local _ .vmem, ⟨22, _⟩ => ⟨S1x1, .f32⟩
  | .local _ .vmem, ⟨23, _⟩ => ⟨S1x1, .f32⟩
  | .local _ .vmem, ⟨24, _⟩ => ⟨S1x1, .f32⟩
  | .local _ .vmem, ⟨25, _⟩ => ⟨S1x1, .f32⟩
  | .local _ .vmem, ⟨26, _⟩ => ⟨S1x4096, .f32⟩
  | .local _ .vmem, ⟨27, _⟩ => ⟨S1x4096, .f32⟩
  | .local _ .vmem, ⟨28, _⟩ => ⟨S1x1, .f32⟩
  | .local _ .vmem, ⟨29, _⟩ => ⟨S1x1, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v9 : Ref sig .tc := ⟨.hbm, 26, rfl⟩
abbrev main_v10 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x16384 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x4096 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x4096 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

class Facts₀ : Prop where
  shapeCasts_S4096_S1x4096 : S4096.ShapeCasts S1x4096
  shapeCasts_S16384_S1x16384 : S16384.ShapeCasts S1x16384
  shapeCasts_S1_S1x1 : S1.ShapeCasts S1x1
  shapeCasts_S1x1x4096_S1x4096 : S1x1x4096.ShapeCasts S1x4096
  inb_S1x8192_S1x8192_0_0 : ∀ a, (![0, 0] : Fin 2 → Nat) a + S1x8192.size a ≤ S1x8192.size a
  h_S1x8192 : 0 < S1x8192.numel
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S256x4096_S256x4096_0_0 : ∀ a, (![0, 0] : Fin 2 → Nat) a + S256x4096.size a ≤ S256x4096.size a
  h_S256x4096 : 0 < S256x4096.numel
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  slices_S1x16384_o0_0_S1x4096 : S1x16384.Slices ![0, 0] S1x4096
  slices_S1x16384_o0_4096_S1x4096 : S1x16384.Slices ![0, 4096] S1x4096
  slices_S1x16384_o0_8192_S1x4096 : S1x16384.Slices ![0, 8192] S1x4096
  slices_S1x16384_o0_12288_S1x4096 : S1x16384.Slices ![0, 12288] S1x4096
  reduces_S1x4096_S1 : S1x4096.Reduces [1] S1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bcast_S1x4096_S1x1x4096_1_2 : S1x4096.BroadcastsInDim S1x1x4096 (![1, 2] : Fin 2 → Fin S1x1x4096.rank)
  dot_S1x8192_S256x8192_S1x256_1_1_0_0_n_n_wf : DotDims.WF S1x8192 S256x8192 S1x256 [1] [1] [0] [0] [] []
  dot_S1x4096_S256x4096_S1x256_1_1_0_0_n_n_wf : DotDims.WF S1x4096 S256x4096 S1x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x8192.size a
  hwx0_0 : ∀ i : grid0.Coords, EltTy.bits .f32 = 32 ∨ (Rect.block (s := S1x8192) S1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S16384x4096.size a
  hwx1_2 : ∀ i : grid1.Coords, EltTy.bits .f32 = 32 ∨ (Rect.block (s := S16384x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S16384x4096.size a
  hwx1_3 : ∀ i : grid1.Coords, EltTy.bits .f32 = 32 ∨ (Rect.block (s := S16384x4096) S256x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x16384.size a
  hwx1_4 : ∀ i : grid1.Coords, EltTy.bits .f32 = 32 ∨ (Rect.block (s := S1x16384) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x16384.size a
  hwx1_5 : ∀ i : grid1.Coords, EltTy.bits .f32 = 32 ∨ (Rect.block (s := S1x16384) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x16384.size a
  hwx1_6 : ∀ i : grid1.Coords, EltTy.bits .f32 = 32 ∨ (Rect.block (s := S1x16384) S1x256.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x16384.size a ≤ S1x16384.size a
  hwx2_0 : ∀ i : grid2.Coords, EltTy.bits .f32 = 32 ∨ (Rect.block (s := S1x16384) S1x16384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4096.size a ≤ S1x4096.size a
  hwx2_1 : ∀ i : grid2.Coords, EltTy.bits .f32 = 32 ∨ (Rect.block (s := S1x4096) S1x4096.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x4096.size a
  hwx2_2 : ∀ i : grid2.Coords, EltTy.bits .f32 = 32 ∨ (Rect.block (s := S1x4096) S1x4096.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x4096.size a ≤ S1x4096.size a
  hwx2_7 : ∀ i : grid2.Coords, EltTy.bits .f32 = 32 ∨ (Rect.block (s := S1x4096) S1x4096.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x4096.size a ≤ S1x4096.size a
  hwx2_8 : ∀ i : grid2.Coords, EltTy.bits .f32 = 32 ∨ (Rect.block (s := S1x4096) S1x4096.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)

variable [Facts₀]

def dot_S1x8192_S256x8192_S1x256_1_1_0_0_n_n : DotDims S1x8192 S256x8192 S1x256 where
  lhsContracting := [1]
  rhsContracting := [1]
  lhsNonContracting := [0]
  rhsNonContracting := [0]
  lhsBatch := []
  rhsBatch := []
  wf := dot_S1x8192_S256x8192_S1x256_1_1_0_0_n_n_wf
def dot_S1x4096_S256x4096_S1x256_1_1_0_0_n_n : DotDims S1x4096 S256x4096 S1x256 where
  lhsContracting := [1]
  rhsContracting := [1]
  lhsNonContracting := [0]
  rhsNonContracting := [0]
  lhsBatch := []
  rhsBatch := []
  wf := dot_S1x4096_S256x4096_S1x256_1_1_0_0_n_n_wf

abbrev win0_0 : Pipeline.Window sig grid0 :=
  Pipeline.Window.ofSpec (Memref.whole main_arg0) S1x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v7) S1x16384.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S1x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg1) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg4) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg5) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v8_0) S1x4096.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v8_1) S1x4096.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v8_2) S1x1.size cc2_transform_9 reads2_9 true true 1 stage2_9 sem2_9
    hrank2 hreads2_9 hinb2_9 nbuf2_9 (Memref.isWhole_whole _) hwx2_9 hstage2_9

abbrev win2_10 : Pipeline.Window sig grid2 :=
  Pipeline.Window.ofSpec (Memref.whole main_v8_3) S1x1.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S1x8192 : Shape := ⟨2, ![1, 8192]⟩
abbrev S1x1 : Shape := ⟨2, ![1, 1]⟩
abbrev S1x1x4096 : Shape := ⟨3, ![1, 1, 4096]⟩
abbrev S4096x8192 : Shape := ⟨2, ![4096, 8192]⟩
abbrev S4096 : Shape := ⟨1, ![4096]⟩
abbrev S16384x4096 : Shape := ⟨2, ![16384, 4096]⟩
abbrev S16384 : Shape := ⟨1, ![16384]⟩
abbrev S1x4096 : Shape := ⟨2, ![1, 4096]⟩
abbrev S1 : Shape := ⟨1, ![1]⟩
abbrev S8192x4096 : Shape := ⟨2, ![8192, 4096]⟩
abbrev S_ : Shape := ⟨0, ![]⟩
abbrev S4096x16384 : Shape := ⟨2, ![4096, 16384]⟩
abbrev S1x16384 : Shape := ⟨2, ![1, 16384]⟩
abbrev S4096x1 : Shape := ⟨2, ![4096, 1]⟩

abbrev nBuf : Space → Nat
  | .hbm => 92
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S1x1, .f32⟩
  | .hbm, ⟨2, _⟩ => ⟨S1x1x4096, .f32⟩
  | .hbm, ⟨3, _⟩ => ⟨S1x1x4096, .f32⟩
  | .hbm, ⟨4, _⟩ => ⟨S1x1, .f32⟩
  | .hbm, ⟨5, _⟩ => ⟨S1x1, .f32⟩
  | .hbm, ⟨6, _⟩ => ⟨S4096x8192, .f32⟩
  | .hbm, ⟨7, _⟩ => ⟨S4096, .f32⟩
  | .hbm, ⟨8, _⟩ => ⟨S16384x4096, .f32⟩
  | .hbm, ⟨9, _⟩ => ⟨S16384, .f32⟩
  | .hbm, ⟨10, _⟩ => ⟨S16384x4096, .f32⟩
  | .hbm, ⟨11, _⟩ => ⟨S16384, .f32⟩
  | .hbm, ⟨12, _⟩ => ⟨S1x4096, .f32⟩
  | .hbm, ⟨13, _⟩ => ⟨S1, .f32⟩
  | .hbm, ⟨14, _⟩ => ⟨S8192x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S_, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S4096x16384, .f32⟩
  | .hbm, ⟨24, _⟩ => ⟨S1x16384, .f32⟩
  | .hbm, ⟨25, _⟩ => ⟨S1x16384, .f32⟩
  | .hbm, ⟨26, _⟩ => ⟨S1x16384, .f32⟩
  | .hbm, ⟨27, _⟩ => ⟨S4096x16384, .f32⟩
  | .hbm, ⟨28, _⟩ => ⟨S1x16384, .f32⟩
  | .hbm, ⟨29, _⟩ => ⟨S1x16384, .f32⟩
  | .hbm, ⟨30, _⟩ => ⟨S1x16384, .f32⟩
  | .hbm, ⟨31, _⟩ => ⟨S1x16384, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S_, .f32⟩
  | .hbm, ⟨39, _⟩ => ⟨S1x4096, .f32⟩
  | .hbm, ⟨40, _⟩ => ⟨S1x4096, .f32⟩
  | .hbm, ⟨41, _⟩ => ⟨S_, .f32⟩
  | .hbm, ⟨42, _⟩ => ⟨S1x4096, .f32⟩
  | .hbm, ⟨43, _⟩ => ⟨S1x4096, .f32⟩
  | .hbm, ⟨44, _⟩ => ⟨S1x4096, .f32⟩
  | .hbm, ⟨45, _⟩ => ⟨S1x4096, .f32⟩
  | .hbm, ⟨46, _⟩ => ⟨S1x4096, .f32⟩
  | .hbm, ⟨47, _⟩ => ⟨S_, .f32⟩
  | .hbm, ⟨48, _⟩ => ⟨S1x4096, .f32⟩
  | .hbm, ⟨49, _⟩ => ⟨S1x4096, .f32⟩
  | .hbm, ⟨50, _⟩ => ⟨S_, .f32⟩
  | .hbm, ⟨51, _⟩ => ⟨S1x4096, .f32⟩
  | .hbm, ⟨52, _⟩ => ⟨S1x4096, .f32⟩
  | .hbm, ⟨53, _⟩ => ⟨S1x4096, .f32⟩
  | .hbm, ⟨54, _⟩ => ⟨S1x4096, .f32⟩
  | .hbm, ⟨55, _⟩ => ⟨S1x4096, .f32⟩
  | .hbm, ⟨56, _⟩ => ⟨S1x4096, .f32⟩
  | .hbm, ⟨57, _⟩ => ⟨S1x4096, .f32⟩
  | .hbm, ⟨58, _⟩ => ⟨S_, .f32⟩
  | .hbm, ⟨59, _⟩ => ⟨S1x4096, .f32⟩
  | .hbm, ⟨60, _⟩ => ⟨S1x4096, .f32⟩
  | .hbm, ⟨61, _⟩ => ⟨S_, .f32⟩
  | .hbm, ⟨62, _⟩ => ⟨S1x4096, .f32⟩
  | .hbm, ⟨63, _⟩ => ⟨S1x4096, .f32⟩
  | .hbm, ⟨64, _⟩ => ⟨S1x4096, .f32⟩
  | .hbm, ⟨65, _⟩ => ⟨S1x4096, .f32⟩
  | .hbm, ⟨66, _⟩ => ⟨S4096x1, .f32⟩
  | .hbm, ⟨67, _⟩ => ⟨S1x1, .f32⟩
  | .hbm, ⟨68, _⟩ => ⟨S1x1, .f32⟩
  | .hbm, ⟨69, _⟩ => ⟨S1x1, .f32⟩
  | .hbm, ⟨70, _⟩ => ⟨S1x1, .f32⟩
  | .hbm, ⟨71, _⟩ => ⟨S1x1, .f32⟩
  | .hbm, ⟨72, _⟩ => ⟨S_, .f32⟩
  | .hbm, ⟨73, _⟩ => ⟨S1x1, .f32⟩
  | .hbm, ⟨74, _⟩ => ⟨S1x1, .f32⟩
  | .hbm, ⟨75, _⟩ => ⟨S_, .f32⟩
  | .hbm, ⟨76, _⟩ => ⟨S1x1, .f32⟩
  | .hbm, ⟨77, _⟩ => ⟨S1x1, .f32⟩
  | .hbm, ⟨78, _⟩ => ⟨S1x1, .f32⟩
  | .hbm, ⟨79, _⟩ => ⟨S_, .f32⟩
  | .hbm, ⟨80, _⟩ => ⟨S1x1, .f32⟩
  | .hbm, ⟨81, _⟩ => ⟨S1x1, .f32⟩
  | .hbm, ⟨82, _⟩ => ⟨S1x1, .f32⟩
  | .hbm, ⟨83, _⟩ => ⟨S1x1, .f32⟩
  | .hbm, ⟨84, _⟩ => ⟨S1x1, .f32⟩
  | .hbm, ⟨85, _⟩ => ⟨S_, .f32⟩
  | .hbm, ⟨86, _⟩ => ⟨S1x1, .f32⟩
  | .hbm, ⟨87, _⟩ => ⟨S1x1, .f32⟩
  | .hbm, ⟨88, _⟩ => ⟨S1x1, .f32⟩
  | .hbm, ⟨89, _⟩ => ⟨S1x1, .f32⟩
  | .hbm, ⟨90, _⟩ => ⟨S1x1x4096, .f32⟩
  | .hbm, ⟨91, _⟩ => ⟨S1x1x4096, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_1 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  transposes_S4096x8192_S8192x4096_1_0 : S4096x8192.Transposes [1, 0] S8192x4096
  bcast_S4096_S1x4096_1 : S4096.BroadcastsInDim S1x4096 (![1] : Fin 1 → Fin S1x4096.rank)
  bcast_S_S1x4096 : S_.BroadcastsInDim S1x4096 (![] : Fin 0 → Fin S1x4096.rank)
  shapeCasts_S1x1x4096_S1x4096 : S1x1x4096.ShapeCasts S1x4096
  transposes_S16384x4096_S4096x16384_1_0 : S16384x4096.Transposes [1, 0] S4096x16384
  bcast_S16384_S1x16384_1 : S16384.BroadcastsInDim S1x16384 (![1] : Fin 1 → Fin S1x16384.rank)
  slices_S1x16384_S1x4096_0_0 : S1x16384.Slices ![0, 0] S1x4096
  slices_S1x16384_S1x4096_0_4096 : S1x16384.Slices ![0, 4096] S1x4096
  slices_S1x16384_S1x4096_0_8192 : S1x16384.Slices ![0, 8192] S1x4096
  slices_S1x16384_S1x4096_0_12288 : S1x16384.Slices ![0, 12288] S1x4096
  transposes_S1x4096_S4096x1_1_0 : S1x4096.Transposes [1, 0] S4096x1
  bcast_S1_S1x1_1 : S1.BroadcastsInDim S1x1 (![1] : Fin 1 → Fin S1x1.rank)
  bcast_S_S1x1 : S_.BroadcastsInDim S1x1 (![] : Fin 0 → Fin S1x1.rank)
  bcast_S1x4096_S1x1x4096_1_2 : S1x4096.BroadcastsInDim S1x1x4096 (![1, 2] : Fin 2 → Fin S1x1x4096.rank)
  dot_S1x8192_S8192x4096_S1x4096_1_0_0_1_n_n_wf : DotDims.WF S1x8192 S8192x4096 S1x4096 [1] [0] [0] [1] [] []
  dot_S1x4096_S4096x16384_S1x16384_1_0_0_1_n_n_wf : DotDims.WF S1x4096 S4096x16384 S1x16384 [1] [0] [0] [1] [] []
  dot_S1x4096_S4096x1_S1x1_1_0_0_1_n_n_wf : DotDims.WF S1x4096 S4096x1 S1x1 [1] [0] [0] [1] [] []

variable [Facts₀]

def dot_S1x8192_S8192x4096_S1x4096_1_0_0_1_n_n : DotDims S1x8192 S8192x4096 S1x4096 where
  lhsContracting := [1]
  rhsContracting := [0]
  lhsNonContracting := [0]
  rhsNonContracting := [1]
  lhsBatch := []
  rhsBatch := []
  wf := dot_S1x8192_S8192x4096_S1x4096_1_0_0_1_n_n_wf
def dot_S1x4096_S4096x16384_S1x16384_1_0_0_1_n_n : DotDims S1x4096 S4096x16384 S1x16384 where
  lhsContracting := [1]
  rhsContracting := [0]
  lhsNonContracting := [0]
  rhsNonContracting := [1]
  lhsBatch := []
  rhsBatch := []
  wf := dot_S1x4096_S4096x16384_S1x16384_1_0_0_1_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf

class Facts : Prop extends Facts₀ where

variable [Facts]
-- ==== Proof.RefStages.lean ====
/-
  The reference's computation, cut into the stages at which the kernel's three launches hand a value on:

    z      = max (x·W1ᵀ + b1, 0)                                   (the dense layer and its relu)
    gates  = ((z·W_ihᵀ + b_ih) + hp·W_hhᵀ) + b_hh                  (the four LSTM gate pre-activations, one row of 4·H)
    c'     = σ(gates[H:2H])·cp + σ(gates[0:H])·tanh(gates[2H:3H])  (the new cell state)
    h'     = σ(gates[3H:4H])·tanh(c')                              (the new hidden state)
    a      = u·a_pre + (1 − u)·σ(h'·W3ᵀ + b3)                      (the blended rate)
    y1     = a·u + (1 − a)·y_pre                                   (the first-order lag)

  with σ(v) = 1 / (1 + exp(−v)) spelt out in the host's operations, as the reference has it. Each stage is written as
  a function of the PREVIOUS stage's value and of the argument arrays it reads, in exactly the reference's
  operations, so that the reference's results are these functions composed (by unfolding alone), and so that a
  launch of the kernel can be compared with one stage at a time.
-/
import proofs.«169435_j88622355185707_1_alg».proof.Proof.Gen.ReferenceIdeal.Read

noncomputable section

namespace Cert.RefStages

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- The row of ones the host broadcasts from the scalar 1.0. -/
abbrev onesRow : (⟨S1x4096, .f32⟩ : BufTy).Contents (Elt F) :=
  broadcastInDim S1x4096 ![] bcast_S_S1x4096 (constant S_ .f32 0x3F800000#32)

/-- The [1,1] array holding 1.0. -/
abbrev onesCell : (⟨S1x1, .f32⟩ : BufTy).Contents (Elt F) :=
  broadcastInDim S1x1 ![] bcast_S_S1x1 (constant S_ .f32 0x3F800000#32)

/-- The logistic function over a row, as the host computes it: 1 / (1 + exp(−v)), entry by entry. -/
def sigRow (v : (⟨S1x4096, .f32⟩ : BufTy).Contents (Elt F)) : (⟨S1x4096, .f32⟩ : BufTy).Contents (Elt F) :=
  Host.divf (onesRow (F := F)) (addf (onesRow (F := F)) (Host.exp (Host.negf v)))

/-- The same over a [1,1] array. -/
def sigCell (v : (⟨S1x1, .f32⟩ : BufTy).Contents (Elt F)) : (⟨S1x1, .f32⟩ : BufTy).Contents (Elt F) :=
  Host.divf (onesCell (F := F)) (addf (onesCell (F := F)) (Host.exp (Host.negf v)))

/-- The gate pre-activations from the dense layer's output `z`, the previous hidden state `hp`, the two weight
    matrices and the two biases: ((z·W_ihᵀ + b_ih) + hp·W_hhᵀ) + b_hh, a row of 4·H. -/
def gatesOf (z hp : (⟨S1x4096, .f32⟩ : BufTy).Contents (Elt F))
    (wih : (⟨S16384x4096, .f32⟩ : BufTy).Contents (Elt F)) (bih : (⟨S16384, .f32⟩ : BufTy).Contents (Elt F))
    (whh : (⟨S16384x4096, .f32⟩ : BufTy).Contents (Elt F)) (bhh : (⟨S16384, .f32⟩ : BufTy).Contents (Elt F)) :
    (⟨S1x16384, .f32⟩ : BufTy).Contents (Elt F) :=
  addf (addf (addf (Host.dotGeneral dot_S1x4096_S4096x16384_S1x16384_1_0_0_1_n_n none z
          (transpose S4096x16384 [1, 0] wih transposes_S16384x4096_S4096x16384_1_0))
        (broadcastInDim S1x16384 ![1] bcast_S16384_S1x16384_1 bih))
      (Host.dotGeneral dot_S1x4096_S4096x16384_S1x16384_1_0_0_1_n_n none hp
        (transpose S4096x16384 [1, 0] whh transposes_S16384x4096_S4096x16384_1_0)))
    (broadcastInDim S1x16384 ![1] bcast_S16384_S1x16384_1 bhh)

/-- The new cell state from the gates and the previous cell state: σ(f)·cp + σ(i)·tanh(g), the gate order i, f, g, o. -/
def cellOf (g : (⟨S1x16384, .f32⟩ : BufTy).Contents (Elt F)) (cp : (⟨S1x4096, .f32⟩ : BufTy).Contents (Elt F)) :
    (⟨S1x4096, .f32⟩ : BufTy).Contents (Elt F) :=
  addf (mulf (sigRow (extractStridedSlice S1x4096 ![0, 4096] g slices_S1x16384_S1x4096_0_4096)) cp)
    (mulf (sigRow (extractStridedSlice S1x4096 ![0, 0] g slices_S1x16384_S1x4096_0_0))
      (Host.tanh (extractStridedSlice S1x4096 ![0, 8192] g slices_S1x16384_S1x4096_0_8192)))

/-- The new hidden state: σ(o)·tanh(c'). -/
def hiddenOf (g : (⟨S1x16384, .f32⟩ : BufTy).Contents (Elt F)) (cp : (⟨S1x4096, .f32⟩ : BufTy).Contents (Elt F)) :
    (⟨S1x4096, .f32⟩ : BufTy).Contents (Elt F) :=
  mulf (sigRow (extractStridedSlice S1x4096 ![0, 12288] g slices_S1x16384_S1x4096_0_12288)) (Host.tanh (cellOf g cp))

/-- The blended rate from the hidden state: u·a_pre + (1 − u)·σ(h'·W3ᵀ + b3). -/
def rateOf (h : (⟨S1x4096, .f32⟩ : BufTy).Contents (Elt F)) (w3 : (⟨S1x4096, .f32⟩ : BufTy).Contents (Elt F))
    (b3 : (⟨S1, .f32⟩ : BufTy).Contents (Elt F)) (u apre : (⟨S1x1, .f32⟩ : BufTy).Contents (Elt F)) :
    (⟨S1x1, .f32⟩ : BufTy).Contents (Elt F) :=
  addf (mulf u apre)
    (mulf (subf (onesCell (F := F)) u)
      (sigCell (addf (Host.dotGeneral dot_S1x4096_S4096x1_S1x1_1_0_0_1_n_n none h
          (transpose S4096x1 [1, 0] w3 transposes_S1x4096_S4096x1_1_0))
        (broadcastInDim S1x1 ![1] bcast_S1_S1x1_1 b3))))

/-- The lagged output from the rate: a·u + (1 − a)·y_pre. -/
def lagOf (a u ypre : (⟨S1x1, .f32⟩ : BufTy).Contents (Elt F)) : (⟨S1x1, .f32⟩ : BufTy).Contents (Elt F) :=
  addf (mulf a u) (mulf (subf (onesCell (F := F)) a) ypre)

/-- A row given a leading unit axis, [1,H] to [1,1,H]: what both programs do to h' and c' before returning them. -/
def leadOf (v : (⟨S1x4096, .f32⟩ : BufTy).Contents (Elt F)) : (⟨S1x1x4096, .f32⟩ : BufTy).Contents (Elt F) :=
  broadcastInDim S1x1x4096 ![1, 2] bcast_S1x4096_S1x1x4096_1_2 v

/-! ## The reference's stages are these functions composed -/

section composed
variable (x0 : (⟨S1x8192, .f32⟩ : BufTy).Contents (Elt F)) (x1 : (⟨S1x1, .f32⟩ : BufTy).Contents (Elt F))
  (x2 x3 : (⟨S1x1x4096, .f32⟩ : BufTy).Contents (Elt F)) (x4 x5 : (⟨S1x1, .f32⟩ : BufTy).Contents (Elt F))
  (x6 : (⟨S4096x8192, .f32⟩ : BufTy).Contents (Elt F)) (x7 : (⟨S4096, .f32⟩ : BufTy).Contents (Elt F))
  (x8 : (⟨S16384x4096, .f32⟩ : BufTy).Contents (Elt F)) (x9 : (⟨S16384, .f32⟩ : BufTy).Contents (Elt F))
  (x10 : (⟨S16384x4096, .f32⟩ : BufTy).Contents (Elt F)) (x11 : (⟨S16384, .f32⟩ : BufTy).Contents (Elt F))
  (x12 : (⟨S1x4096, .f32⟩ : BufTy).Contents (Elt F)) (x13 : (⟨S1, .f32⟩ : BufTy).Contents (Elt F))

/-- The gates the reference computes, as a function of all its arguments. -/
abbrev gatesR : (⟨S1x16384, .f32⟩ : BufTy).Contents (Elt F) :=
  gatesOf (val_main_v4 (F := F) x0 x6 x7) (val_main_v5 (F := F) x2) x8 x9 x10 x11

theorem gates_eq : val_main_v15 (F := F) x0 x2 x6 x7 x8 x9 x10 x11 = gatesR x0 x2 x6 x7 x8 x9 x10 x11 := rfl

theorem cell_eq : val_main_v35 (F := F) x0 x2 x3 x6 x7 x8 x9 x10 x11
    = cellOf (gatesR x0 x2 x6 x7 x8 x9 x10 x11) (val_main_v6 (F := F) x3) := rfl

theorem hidden_eq : val_main_v43 (F := F) x0 x2 x3 x6 x7 x8 x9 x10 x11
    = hiddenOf (gatesR x0 x2 x6 x7 x8 x9 x10 x11) (val_main_v6 (F := F) x3) := rfl

theorem rate_eq : val_main_v58 (F := F) x0 x1 x2 x3 x5 x6 x7 x8 x9 x10 x11 x12 x13
    = rateOf (hiddenOf (gatesR x0 x2 x6 x7 x8 x9 x10 x11) (val_main_v6 (F := F) x3)) x12 x13 x1 x5 := rfl

theorem lag_eq : val_main_v63 (F := F) x0 x1 x2 x3 x4 x5 x6 x7 x8 x9 x10 x11 x12 x13
    = lagOf (rateOf (hiddenOf (gatesR x0 x2 x6 x7 x8 x9 x10 x11) (val_main_v6 (F := F) x3)) x12 x13 x1 x5) x1 x4 := rfl

theorem hidden_lead_eq : val_main_v64 (F := F) x0 x2 x3 x6 x7 x8 x9 x10 x11
    = leadOf (hiddenOf (gatesR x0 x2 x6 x7 x8 x9 x10 x11) (val_main_v6 (F := F) x3)) := rfl

theorem cell_lead_eq : val_main_v65 (F := F) x0 x2 x3 x6 x7 x8 x9 x10 x11
    = leadOf (cellOf (gatesR x0 x2 x6 x7 x8 x9 x10 x11) (val_main_v6 (F := F) x3)) := rfl

end composed

end Cert.RefStages

end
-- ==== Proof.DenseRegion.lean ====
/-
  The first launch: z = max (x·W1ᵀ + b1, 0), computed in 16 grid points, point t writing the 256 entries
  z[256·t .. 256·t+255] from the whole row x, rows 256·t .. 256·t+255 of W1 and the same 256 entries of b1.
  Read over the extended reals, the array the launch leaves is the reference's dense layer followed by its relu.
-/
import proofs.«169435_j88622355185707_1_alg».proof.Proof.Gen.KernelIdeal.Frame
import proofs.«169435_j88622355185707_1_alg».proof.Proof.RefStages

set_option maxRecDepth 16384

noncomputable section

namespace Cert.KernelIdeal.DenseRegion

open Cert.KernelIdeal Cert.KernelIdeal.Gen Idealize.ShloMosaic Idealize.ShloMosaic.TcCoe Idealize.SL.Sem
open Idealize.ShloMosaic.Pipeline (Dat)
open Cert.RefStages

-- The TensorCore's buffer contents when the launch is entered: everything below holds for any such contents.
variable (V : (c : Dev nD) → (b : Ref sig .tc) → Buf (Elt Ideal) ((c : Thread nD τ).loc b))

/-! ## The body's arithmetic at one entry of a block -/

/-- The row's entry that the product at output entry `y` and position `k` of the contracted axis reads: (y₀, k). -/
abbrev rowIdx (y : S1x256.Idx) (k : Fin 8192) : S1x8192.Idx := fun a => match a with
  | ⟨0, _⟩ => ⟨(y 0).val, (y 0).isLt⟩
  | ⟨1, _⟩ => ⟨k.val, k.isLt⟩

/-- The weight block's entry it reads: (y₁, k), row y₁ of the block. -/
abbrev blkIdx (y : S1x256.Idx) (k : Fin 8192) : S256x8192.Idx := fun a => match a with
  | ⟨0, _⟩ => ⟨(y 1).val, (y 1).isLt⟩
  | ⟨1, _⟩ => ⟨k.val, k.isLt⟩

theorem lhs_dot_S1x8192_S256x8192_S1x256_1_1_0_0_n_n_0 (i : S1x256.Idx) (q : dot_S1x8192_S256x8192_S1x256_1_1_0_0_n_n.contr.Idx) :
    (dot_S1x8192_S256x8192_S1x256_1_1_0_0_n_n.lhsIdx i q 0).val = (i 0).val := by
  unfold DotDims.lhsIdx
  rw [dif_neg (show ¬(0 : Fin S1x8192.rank) ∈ dot_S1x8192_S256x8192_S1x256_1_1_0_0_n_n.lhsBatch by decide), dif_pos (show (0 : Fin S1x8192.rank) ∈ dot_S1x8192_S256x8192_S1x256_1_1_0_0_n_n.lhsNonContracting by decide)]
  rfl
theorem lhs_dot_S1x8192_S256x8192_S1x256_1_1_0_0_n_n_1 (i : S1x256.Idx) (q : dot_S1x8192_S256x8192_S1x256_1_1_0_0_n_n.contr.Idx) :
    (dot_S1x8192_S256x8192_S1x256_1_1_0_0_n_n.lhsIdx i q 1).val = (q ⟨0, by decide⟩).val :=
  dot_S1x8192_S256x8192_S1x256_1_1_0_0_n_n.lhsIdx_val_of_single rfl i q
theorem rhs_dot_S1x8192_S256x8192_S1x256_1_1_0_0_n_n_0 (i : S1x256.Idx) (q : dot_S1x8192_S256x8192_S1x256_1_1_0_0_n_n.contr.Idx) :
    (dot_S1x8192_S256x8192_S1x256_1_1_0_0_n_n.rhsIdx i q 0).val = (i 1).val := by
  unfold DotDims.rhsIdx
  rw [dif_neg (show ¬(0 : Fin S256x8192.rank) ∈ dot_S1x8192_S256x8192_S1x256_1_1_0_0_n_n.rhsBatch by decide), dif_pos (show (0 : Fin S256x8192.rank) ∈ dot_S1x8192_S256x8192_S1x256_1_1_0_0_n_n.rhsNonContracting by decide)]
  rfl
theorem rhs_dot_S1x8192_S256x8192_S1x256_1_1_0_0_n_n_1 (i : S1x256.Idx) (q : dot_S1x8192_S256x8192_S1x256_1_1_0_0_n_n.contr.Idx) :
    (dot_S1x8192_S256x8192_S1x256_1_1_0_0_n_n.rhsIdx i q 1).val = (q ⟨0, by decide⟩).val :=
  dot_S1x8192_S256x8192_S1x256_1_1_0_0_n_n.rhsIdx_val_of_single rfl i q

/-- The product of the row against the 256-row block into the zero splat, at entry `y`: the sum over the 8192
    positions of the contracted axis of row entry (y₀, k) times block entry (y₁, k). -/
theorem matmul_block_apply (a : FVec Ideal S1x8192 .bf16) (b : FVec Ideal S256x8192 .bf16) (y : S1x256.Idx) :
    matmul dot_S1x8192_S256x8192_S1x256_1_1_0_0_n_n none a b (constant (F := Ideal) S1x256 .f32 0x00000000#32) y
      = ∑ k : Fin 8192, a (rowIdx y k) * b (blkIdx y k) := by
  simp only [matmul]
  rw [Ideal.matmul_constant_zero_apply, ← Equiv.sum_comp (ValueIdx.contrEquiv1 dot_S1x8192_S256x8192_S1x256_1_1_0_0_n_n 8192 rfl rfl).symm]
  refine Finset.sum_congr rfl fun k _ => ?_
  have hk := ValueIdx.contrEquiv1_symm_val dot_S1x8192_S256x8192_S1x256_1_1_0_0_n_n 8192 rfl rfl k
  have el : dot_S1x8192_S256x8192_S1x256_1_1_0_0_n_n.lhsIdx y ((ValueIdx.contrEquiv1 dot_S1x8192_S256x8192_S1x256_1_1_0_0_n_n 8192 rfl rfl).symm k) = rowIdx y k := funext fun a => Fin.ext (by
    match a with
    | ⟨0, _⟩ => exact lhs_dot_S1x8192_S256x8192_S1x256_1_1_0_0_n_n_0 _ _
    | ⟨1, _⟩ => exact (lhs_dot_S1x8192_S256x8192_S1x256_1_1_0_0_n_n_1 _ _).trans hk)
  have er : dot_S1x8192_S256x8192_S1x256_1_1_0_0_n_n.rhsIdx y ((ValueIdx.contrEquiv1 dot_S1x8192_S256x8192_S1x256_1_1_0_0_n_n 8192 rfl rfl).symm k) = blkIdx y k := funext fun a => Fin.ext (by
    match a with
    | ⟨0, _⟩ => exact rhs_dot_S1x8192_S256x8192_S1x256_1_1_0_0_n_n_0 _ _
    | ⟨1, _⟩ => exact (rhs_dot_S1x8192_S256x8192_S1x256_1_1_0_0_n_n_1 _ _).trans hk)
  rw [el, er]

/-- The body's value at entry `y` of its block: max (∑ₖ x(y₀,k)·w(y₁,k) + b(y), 0). The change of format is the
    identity over the extended reals, the shape cast to the same shape is the identity, and the zero splat is 0. -/
theorem pay_apply (x0 : Vec Ideal S1x8192 .f32) (x1 : Vec Ideal S256x8192 .f32) (x2 : Vec Ideal S1x256 .f32) (y : S1x256.Idx) :
    k0_pay1 (F := Ideal) x0 x1 x2 y
      = max ((∑ k : Fin 8192, x0 (rowIdx y k) * x1 (blkIdx y k)) + x2 y) 0 := by
  unfold k0_pay1
  show max ((matmul dot_S1x8192_S256x8192_S1x256_1_1_0_0_n_n none (truncf .bf16 x0 bitsLt_bf16_f32) (truncf .bf16 x1 bitsLt_bf16_f32)
      (constant (F := Ideal) S1x256 .f32 0x00000000#32)) y + (shapeCast S1x256 x2 shapeCasts_S1x256_S1x256) y)
    (Ideal.ofBits .f32 0x00000000#32) = _
  rw [matmul_block_apply, shapeCast_self, Ideal.ofBits_zero_f32]
  rfl

/-! ## One entry of a block against one entry of the reference -/

open Cert.ReferenceIdeal.Read in
/-- The reference's dense layer and relu at entry `i`: max (∑ₖ x(i₀,k)·W1(i₁,k) + b1(i₁), 0). -/
theorem ref_apply (x : (⟨S1x8192, .f32⟩ : BufTy).Contents (Elt Ideal)) (w : (⟨S4096x8192, .f32⟩ : BufTy).Contents (Elt Ideal))
    (b1 : (⟨S4096, .f32⟩ : BufTy).Contents (Elt Ideal)) (i : S1x4096.Idx) :
    val_main_v4 (F := Ideal) x w b1 i
      = max ((∑ k : Fin 8192, x (lidx_main_v1 i k) * w (idx_main_v0 (ridx_main_v1 i k))) + b1 (idx_main_v2 i)) 0 := by
  rw [val_main_v4_apply, val_main_v3_apply, val_main_v1_apply, val_main_v2_apply, val_main_call0_v0_apply,
    val_main_call0_cst_apply]
  simp only [val_main_v0_apply]
  show max (_ + _) (Ideal.ofBits .f32 0x00000000#32) = _
  rw [Ideal.ofBits_zero_f32]

open Cert.ReferenceIdeal.Read in
/-- The body on blocks read off the arrays `x`, `w`, `bias` through maps `e0`, `e1`, `e2` of block entries to array
    entries, at entry `y`, is the reference at the array entry `e3 y`, when the maps are those of grid point `n`:
    the row whole (e0 the identity), rows 256·n … of `w` (e1), entries 256·n … of the bias row and of the output
    row (e2, e3), and the bias row is the bias vector given a leading unit axis. Both sides are
    max (∑ₖ x(0,k)·w(256·n + y₁, k) + b1(256·n + y₁), 0). -/
theorem entry_eq (x : S1x8192.Idx → Ideal .f32) (w : S4096x8192.Idx → Ideal .f32) (bias : S1x4096.Idx → Ideal .f32)
    (b1 : S4096.Idx → Ideal .f32) (hb : bias = shapeCast S1x4096 b1 shapeCasts_S4096_S1x4096)
    (e0 : S1x8192.Idx → S1x8192.Idx) (e1 : S256x8192.Idx → S4096x8192.Idx) (e2 e3 : S1x256.Idx → S1x4096.Idx) (n : Nat)
    (h00 : ∀ z, (e0 z 0).val = (z 0).val) (h01 : ∀ z, (e0 z 1).val = (z 1).val)
    (h10 : ∀ z, (e1 z 0).val = n * 256 + (z 0).val) (h11 : ∀ z, (e1 z 1).val = (z 1).val)
    (h20 : ∀ z, (e2 z 0).val = (z 0).val) (h21 : ∀ z, (e2 z 1).val = n * 256 + (z 1).val)
    (h30 : ∀ z, (e3 z 0).val = (z 0).val) (h31 : ∀ z, (e3 z 1).val = n * 256 + (z 1).val) (y : S1x256.Idx) :
    k0_pay1 (F := Ideal) (fun z => x (e0 z)) (fun z => w (e1 z)) (fun z => bias (e2 z)) y
      = val_main_v4 (F := Ideal) x w b1 (e3 y) := by
  rw [pay_apply, ref_apply]
  have hx : ∀ k : Fin 8192, e0 (rowIdx y k) = lidx_main_v1 (e3 y) k := fun k => funext fun a => Fin.ext (by
    match a with
    | ⟨0, _⟩ => exact (h00 _).trans (h30 y).symm
    | ⟨1, _⟩ => exact h01 _)
  have hw : ∀ k : Fin 8192, e1 (blkIdx y k) = idx_main_v0 (ridx_main_v1 (e3 y) k) := fun k => funext fun a => Fin.ext (by
    match a with
    | ⟨0, _⟩ => exact (h10 _).trans (h31 y).symm
    | ⟨1, _⟩ => exact h11 _)
  have hbias : bias (e2 y) = b1 (idx_main_v2 (e3 y)) := by
    rw [hb]
    refine shapeCast_apply b1 shapeCasts_S4096_S1x4096 (e2 y) (idx_main_v2 (e3 y)) ?_
    rw [Shape.rowMajor_val_one, Shape.rowMajor_val_two]
    have a0 := h20 y
    have a1 := h21 y
    have a3 := h31 y
    have y0 : (y 0).val < 1 := (y 0).isLt
    show (e3 y 1).val = (e2 y 0).val * 4096 + (e2 y 1).val
    omega
  simp only [hx, hw, hbias]

/-! ## What a grid point writes back -/

/-- The offsets of a rectangle that is a whole buffer are zero on both axes. -/
theorem zero_off : (![0, 0] : Fin 2 → Nat) = fun _ => 0 := funext fun a => by fin_cases a <;> rfl

/-- The four index maps over the 16 grid points: the row's block is always block (0,0); the weight's is block
    (t,0); the bias row's and the output row's are block (0,t). -/
theorem block_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Grid point `t` writes back block `t` of the reference's relu(x·W1ᵀ + b1): entry y of what the body leaves is
    the reference at (0, 256·t + y₁). -/
theorem flushed_eq (c : Dev nD) (b1 : (⟨S4096, .f32⟩ : BufTy).Contents (Elt Ideal))
    (hb : V c main_v0 = shapeCast S1x4096 b1 shapeCasts_S4096_S1x4096) (t : Fin cfg0.N) :
    (dat0 (F := Ideal) V c).flushed 3 t
      = ((cfg0.win 3).blk t).view.read (Elt Ideal)
          (Cert.ReferenceIdeal.Read.val_main_v4 (F := Ideal) (V c main_arg0) (V c main_arg6) b1) := by
  show (cfg0.win 3).cut (grid0.coords t) ((dat0 V c).after 3 t) = _
  rw [after0_3]
  unfold out0_3
  rw [View.canon_unit_zero zero_off]
  simp only [View.ld_unit_zero (S := S1x8192) zero_off, View.ld_unit_zero (S := S256x8192) zero_off,
    View.ld_unit_zero (S := S1x256) zero_off]
  funext y
  obtain ⟨i00, i01, i10, i11, i20, i21, i30, i31⟩ := block_index t
  exact entry_eq (V c main_arg0) (V c main_arg6) (V c main_v0) b1 hb
    ((cfg0.win 0).blk t).view.emb ((cfg0.win 1).blk t).view.emb ((cfg0.win 2).blk t).view.emb
    ((cfg0.win 3).blk t).view.emb t.val
    (fun z => by show win0_0.index t (0 : Fin 2) * 1 + 1 * (z 0).val = (z 0).val; omega)
    (fun z => by show win0_0.index t (1 : Fin 2) * 8192 + 1 * (z 1).val = (z 1).val; omega)
    (fun z => by show win0_1.index t (0 : Fin 2) * 256 + 1 * (z 0).val = t.val * 256 + (z 0).val; omega)
    (fun z => by show win0_1.index t (1 : Fin 2) * 8192 + 1 * (z 1).val = (z 1).val; omega)
    (fun z => by show win0_2.index t (0 : Fin 2) * 1 + 1 * (z 0).val = (z 0).val; omega)
    (fun z => by show win0_2.index t (1 : Fin 2) * 256 + 1 * (z 1).val = t.val * 256 + (z 1).val; omega)
    (fun z => by show win0_3.index t (0 : Fin 2) * 1 + 1 * (z 0).val = (z 0).val; omega)
    (fun z => by show win0_3.index t (1 : Fin 2) * 256 + 1 * (z 1).val = t.val * 256 + (z 1).val; omega)
    y

/-! ## The sixteen blocks fill the output row -/

/-- An entry of the output row is in point `t`'s block iff each coordinate is in the block's range on its axis. -/
theorem mem_block (t : Fin cfg0.N) (i : S1x4096.Idx) :
    i ∈ ((cfg0.win 3).blk t).view.set
      ↔ ∀ a : Fin 2, win0_3.index t a * S1x256.size a ≤ (i a).val
          ∧ (i a).val < win0_3.index t a * S1x256.size a + S1x256.size a := by
  show i ∈ ((View.whole main_v6).slice (win0_3.rect t)).set ↔ _
  rw [View.set_slice_whole, Rect.mem_set_unit]
  exact Iff.rfl

/-- Entry (0, j) of the output row is in the block of point j / 256, which is written back. -/
theorem covered (i : S1x4096.Idx) :
    ∃ t : Fin cfg0.N, (cfg0.win 3).flush t = true ∧ i ∈ ((cfg0.win 3).blk t).view.set := by
  have hi0 : (i 0).val < 1 := (i 0).isLt
  have hi1 : (i 1).val < 4096 := (i 1).isLt
  obtain ⟨t, ht⟩ : ∃ t : Fin cfg0.N, t.val = (i 1).val / 256 :=
    ⟨⟨(i 1).val / 256, by show (i 1).val / 256 < 16; omega⟩, rfl⟩
  obtain ⟨-, -, -, -, -, -, i30, i31⟩ := block_index t
  refine ⟨t, flush0_3 t, ?_⟩
  rw [mem_block]
  intro a
  match a with
  | ⟨0, _⟩ =>
    show win0_3.index t (0 : Fin 2) * 1 ≤ (i 0).val ∧ (i 0).val < win0_3.index t (0 : Fin 2) * 1 + 1
    omega
  | ⟨1, _⟩ =>
    show win0_3.index t (1 : Fin 2) * 256 ≤ (i 1).val ∧ (i 1).val < win0_3.index t (1 : Fin 2) * 256 + 256
    omega

/-! ## The array the launch leaves -/

/-- After the first launch its output array holds the reference's relu(x·W1ᵀ + b1), whatever the entry contents,
    provided the bias window's array is the bias vector given a leading unit axis. -/
theorem array_eq (c : Dev nD) (b1 : (⟨S4096, .f32⟩ : BufTy).Contents (Elt Ideal))
    (hb : V c main_v0 = shapeCast S1x4096 b1 shapeCasts_S4096_S1x4096) :
    (dat0 (F := Ideal) V c).arrAt 3 cfg0.N
      = Cert.ReferenceIdeal.Read.val_main_v4 (F := Ideal) (V c main_arg0) (V c main_arg6) b1 := by
  exact (dat0 (F := Ideal) V c).arrAt_eq_of_cover 3 _ (fun t _ => flushed_eq V c b1 hb t) covered

end Cert.KernelIdeal.DenseRegion

end
-- ==== Proof.GatesRegion.lean ====
/-
  The second launch: the four LSTM gate pre-activations, one row of 4·H = 16384 entries, computed in 64 grid points,
  point t writing entries 256·t .. 256·t+255 as (z·W_ihᵀ + hp·W_hhᵀ) + b_ih + b_hh over rows 256·t .. 256·t+255 of the
  two weight matrices. The reference adds the same four terms in another order, ((z·W_ihᵀ + b_ih) + hp·W_hhᵀ) + b_hh;
  over the extended reals addition is commutative and associative, so the two rows are equal entry by entry.
-/
import proofs.«169435_j88622355185707_1_alg».proof.Proof.Gen.KernelIdeal.Frame
import proofs.«169435_j88622355185707_1_alg».proof.Proof.RefStages

set_option maxRecDepth 16384

noncomputable section

namespace Cert.KernelIdeal.GatesRegion

open Cert.KernelIdeal Cert.KernelIdeal.Gen Idealize.ShloMosaic Idealize.ShloMosaic.TcCoe Idealize.SL.Sem
open Idealize.ShloMosaic.Pipeline (Dat)
open Cert.RefStages

-- The TensorCore's buffer contents when the launch is entered: everything below holds for any such contents.
variable (V : (c : Dev nD) → (b : Ref sig .tc) → Buf (Elt Ideal) ((c : Thread nD τ).loc b))

/-! ## The contraction of a row with a block of rows, at an entry -/

/-- The row operand's index at output entry `i` and contraction position `q`: the entry's row … -/
theorem rowIdx_0 (i : S1x256.Idx) (q : dot_S1x4096_S256x4096_S1x256_1_1_0_0_n_n.contr.Idx) :
    (dot_S1x4096_S256x4096_S1x256_1_1_0_0_n_n.lhsIdx i q 0).val = (i 0).val := by
  unfold DotDims.lhsIdx
  rw [dif_neg (show ¬(0 : Fin S1x4096.rank) ∈ dot_S1x4096_S256x4096_S1x256_1_1_0_0_n_n.lhsBatch by decide), dif_pos (show (0 : Fin S1x4096.rank) ∈ dot_S1x4096_S256x4096_S1x256_1_1_0_0_n_n.lhsNonContracting by decide)]
  rfl
/-- … and the contraction position as its column. -/
theorem rowIdx_1 (i : S1x256.Idx) (q : dot_S1x4096_S256x4096_S1x256_1_1_0_0_n_n.contr.Idx) :
    (dot_S1x4096_S256x4096_S1x256_1_1_0_0_n_n.lhsIdx i q 1).val = (q ⟨0, by decide⟩).val :=
  dot_S1x4096_S256x4096_S1x256_1_1_0_0_n_n.lhsIdx_val_of_single rfl i q
/-- The block operand's index there: the entry's column as its row … -/
theorem blockIdx_0 (i : S1x256.Idx) (q : dot_S1x4096_S256x4096_S1x256_1_1_0_0_n_n.contr.Idx) :
    (dot_S1x4096_S256x4096_S1x256_1_1_0_0_n_n.rhsIdx i q 0).val = (i 1).val := by
  unfold DotDims.rhsIdx
  rw [dif_neg (show ¬(0 : Fin S256x4096.rank) ∈ dot_S1x4096_S256x4096_S1x256_1_1_0_0_n_n.rhsBatch by decide), dif_pos (show (0 : Fin S256x4096.rank) ∈ dot_S1x4096_S256x4096_S1x256_1_1_0_0_n_n.rhsNonContracting by decide)]
  rfl
/-- … and the contraction position as its column. -/
theorem blockIdx_1 (i : S1x256.Idx) (q : dot_S1x4096_S256x4096_S1x256_1_1_0_0_n_n.contr.Idx) :
    (dot_S1x4096_S256x4096_S1x256_1_1_0_0_n_n.rhsIdx i q 1).val = (q ⟨0, by decide⟩).val :=
  dot_S1x4096_S256x4096_S1x256_1_1_0_0_n_n.rhsIdx_val_of_single rfl i q

/-- Column `k` of the row of an output entry `y` of a block. -/
abbrev rowAt (y : S1x256.Idx) (k : Fin 4096) : S1x4096.Idx := fun a => match a with
  | ⟨0, _⟩ => ⟨(y 0).val, (y 0).isLt⟩
  | ⟨1, _⟩ => ⟨k.val, k.isLt⟩
/-- Column `k` of the block's row that output entry `y` contracts with. -/
abbrev blockAt (y : S1x256.Idx) (k : Fin 4096) : S256x4096.Idx := fun a => match a with
  | ⟨0, _⟩ => ⟨(y 1).val, (y 1).isLt⟩
  | ⟨1, _⟩ => ⟨k.val, k.isLt⟩

/-- A row times the transpose of a 256-row block, accumulated into zero, at entry `y`: the sum over the 4096 columns
    of the row's entry times the block's entry in row `y 1`. -/
theorem matmul_row_block_apply {φ₁ φ₂ : FTy} (x : FVec Ideal S1x4096 φ₁) (w : FVec Ideal S256x4096 φ₂) (y : S1x256.Idx) :
    matmul dot_S1x4096_S256x4096_S1x256_1_1_0_0_n_n none x w (constant (F := Ideal) S1x256 .f32 0x00000000#32) y
      = ∑ k : Fin 4096, x (rowAt y k) * w (blockAt y k) := by
  simp only [matmul]
  rw [Ideal.matmul_constant_zero_apply, ← Equiv.sum_comp (ValueIdx.contrEquiv1 dot_S1x4096_S256x4096_S1x256_1_1_0_0_n_n 4096 rfl rfl).symm]
  refine Finset.sum_congr rfl fun k _ => ?_
  have hk := ValueIdx.contrEquiv1_symm_val dot_S1x4096_S256x4096_S1x256_1_1_0_0_n_n 4096 rfl rfl k
  have el : dot_S1x4096_S256x4096_S1x256_1_1_0_0_n_n.lhsIdx y ((ValueIdx.contrEquiv1 dot_S1x4096_S256x4096_S1x256_1_1_0_0_n_n 4096 rfl rfl).symm k) = rowAt y k := funext fun a => Fin.ext (by
    match a with
    | ⟨0, _⟩ => exact rowIdx_0 _ _
    | ⟨1, _⟩ => exact (rowIdx_1 _ _).trans hk)
  have er : dot_S1x4096_S256x4096_S1x256_1_1_0_0_n_n.rhsIdx y ((ValueIdx.contrEquiv1 dot_S1x4096_S256x4096_S1x256_1_1_0_0_n_n 4096 rfl rfl).symm k) = blockAt y k := funext fun a => Fin.ext (by
    match a with
    | ⟨0, _⟩ => exact blockIdx_0 _ _
    | ⟨1, _⟩ => exact (blockIdx_1 _ _).trans hk)
  rw [el, er]

/-! ## The body's value at an entry -/

/-- The body's stored value at entry `y` of its block, from the six loaded blocks: the two contractions, then the two
    bias entries, added in the body's order. -/
theorem pay_apply (x0 x1 : Vec Ideal S1x4096 .f32) (x2 x3 : Vec Ideal S256x4096 .f32) (x4 x5 : Vec Ideal S1x256 .f32) (y : S1x256.Idx) :
    k1_pay1 (F := Ideal) x0 x1 x2 x3 x4 x5 y
      = (((∑ k : Fin 4096, x0 (rowAt y k) * x2 (blockAt y k)) + ∑ k : Fin 4096, x1 (rowAt y k) * x3 (blockAt y k)) + x4 y) + x5 y := by
  unfold k1_pay1
  rw [shapeCast_self, shapeCast_self, shapeCast_self, shapeCast_self]
  show ((matmul dot_S1x4096_S256x4096_S1x256_1_1_0_0_n_n none _ _ (constant (F := Ideal) S1x256 .f32 0x00000000#32) y
      + matmul dot_S1x4096_S256x4096_S1x256_1_1_0_0_n_n none _ _ (constant (F := Ideal) S1x256 .f32 0x00000000#32) y) + x4 y) + x5 y = _
  rw [matmul_row_block_apply, matmul_row_block_apply]
  rfl

/-! ## The reference's gate row at an entry -/

/-- Column `k` of the one row of `z` (or `hp`), for the gate entry `i`. -/
abbrev stateAt (i : S1x16384.Idx) (k : Fin 4096) : S1x4096.Idx := fun a => match a with
  | ⟨0, _⟩ => ⟨(i 0).val, (i 0).isLt⟩
  | ⟨1, _⟩ => ⟨k.val, k.isLt⟩
/-- Column `k` of the weight matrix's row `i 1`: the row gate entry `i` contracts with. -/
abbrev weightAt (i : S1x16384.Idx) (k : Fin 4096) : S16384x4096.Idx := fun a => match a with
  | ⟨0, _⟩ => ⟨(i 1).val, (i 1).isLt⟩
  | ⟨1, _⟩ => ⟨k.val, k.isLt⟩
/-- The same entry of the transposed weight matrix. -/
abbrev weightTAt (i : S1x16384.Idx) (k : Fin 4096) : Cert.ReferenceIdeal.S4096x16384.Idx := fun a => match a with
  | ⟨0, _⟩ => ⟨k.val, k.isLt⟩
  | ⟨1, _⟩ => ⟨(i 1).val, (i 1).isLt⟩
/-- The bias vector's entry for gate entry `i`. -/
abbrev biasAt (i : S1x16384.Idx) : S16384.Idx := fun a => match a with
  | ⟨0, _⟩ => ⟨(i 1).val, (i 1).isLt⟩

/-- The host's product of a row with a transposed weight matrix, at gate entry `i`: the sum over the 4096 columns of
    the row's entry times the matrix's entry in row `i 1`. -/
theorem hostDot_apply (z : FVec Ideal S1x4096 .f32) (w : FVec Ideal S16384x4096 .f32)
    (hT : S16384x4096.Transposes [1, 0] Cert.ReferenceIdeal.S4096x16384) (i : S1x16384.Idx) :
    Host.dotGeneral (F := Ideal) Cert.ReferenceIdeal.dot_S1x4096_S4096x16384_S1x16384_1_0_0_1_n_n none z
        (transpose Cert.ReferenceIdeal.S4096x16384 [1, 0] w hT) i
      = ∑ k : Fin 4096, z (stateAt i k) * w (weightAt i k) := by
  generalize hy : transpose Cert.ReferenceIdeal.S4096x16384 [1, 0] w hT = y1
  simp only [Host.dotGeneral]
  rw [Ideal.dotGeneral_apply, ← Equiv.sum_comp (ValueIdx.contrEquiv1 Cert.ReferenceIdeal.dot_S1x4096_S4096x16384_S1x16384_1_0_0_1_n_n 4096 rfl rfl).symm]
  refine Finset.sum_congr rfl fun k _ => ?_
  have hk := ValueIdx.contrEquiv1_symm_val Cert.ReferenceIdeal.dot_S1x4096_S4096x16384_S1x16384_1_0_0_1_n_n 4096 rfl rfl k
  have el : Cert.ReferenceIdeal.dot_S1x4096_S4096x16384_S1x16384_1_0_0_1_n_n.lhsIdx i ((ValueIdx.contrEquiv1 Cert.ReferenceIdeal.dot_S1x4096_S4096x16384_S1x16384_1_0_0_1_n_n 4096 rfl rfl).symm k) = stateAt i k := funext fun a => Fin.ext (by
    match a with
    | ⟨0, _⟩ => exact Cert.ReferenceIdeal.Read.lhs_main_v8_0 _ _
    | ⟨1, _⟩ => exact (Cert.ReferenceIdeal.Read.lhs_main_v8_1 _ _).trans hk)
  have er : Cert.ReferenceIdeal.dot_S1x4096_S4096x16384_S1x16384_1_0_0_1_n_n.rhsIdx i ((ValueIdx.contrEquiv1 Cert.ReferenceIdeal.dot_S1x4096_S4096x16384_S1x16384_1_0_0_1_n_n 4096 rfl rfl).symm k) = weightTAt i k := funext fun a => Fin.ext (by
    match a with
    | ⟨0, _⟩ => exact (Cert.ReferenceIdeal.Read.rhs_main_v8_0 _ _).trans hk
    | ⟨1, _⟩ => exact Cert.ReferenceIdeal.Read.rhs_main_v8_1 _ _)
  rw [el, er, ← hy]
  exact congrArg (z (stateAt i k) * ·) (transpose_apply [1, 0] w hT (weightTAt i k) (weightAt i k) (fun b => match b with
    | ⟨0, _⟩ => rfl
    | ⟨1, _⟩ => rfl))

/-- A bias vector broadcast along the row, at gate entry `i`. -/
theorem hostBias_apply (b : FVec Ideal S16384 .f32) (hB : S16384.BroadcastsInDim S1x16384 (![1] : Fin 1 → Fin S1x16384.rank))
    (i : S1x16384.Idx) : broadcastInDim S1x16384 ![1] hB b i = b (biasAt i) :=
  broadcastInDim_apply _ hB b i (biasAt i) (fun a => match a with
    | ⟨0, _⟩ => by show (i 1).val = if (16384 : Nat) = 1 then 0 else (i 1).val; rw [if_neg (by decide)])

/-- A bias vector given a leading unit axis, at gate entry `i`: the same entry. -/
theorem leadBias_apply (b : S16384.Idx → EReal) (h : S16384.ShapeCasts S1x16384) (i : S1x16384.Idx) :
    shapeCast S1x16384 b h i = b (biasAt i) := by
  refine shapeCast_apply b h i (biasAt i) ?_
  rw [Shape.rowMajor_val_one, Shape.rowMajor_val_two]
  have h0 : (i 0).val < 1 := (i 0).isLt
  show (i 1).val = (i 0).val * 16384 + (i 1).val
  omega

/-- The reference's gate row at entry `i`: ((z·W_ihᵀ + b_ih) + hp·W_hhᵀ) + b_hh there. -/
theorem gatesOf_apply (z hp : FVec Ideal S1x4096 .f32) (wih : FVec Ideal S16384x4096 .f32) (bih : FVec Ideal S16384 .f32)
    (whh : FVec Ideal S16384x4096 .f32) (bhh : FVec Ideal S16384 .f32) (i : S1x16384.Idx) :
    gatesOf (F := Ideal) z hp wih bih whh bhh i
      = (((∑ k : Fin 4096, z (stateAt i k) * wih (weightAt i k)) + bih (biasAt i))
          + ∑ k : Fin 4096, hp (stateAt i k) * whh (weightAt i k)) + bhh (biasAt i) := by
  unfold gatesOf
  simp only [ValueIdx.addf_apply]
  rw [hostDot_apply, hostDot_apply, hostBias_apply, hostBias_apply]

/-! ## Every point writes its block of one gate row -/

/-- The gate row in the body's order of addition, from the six arrays the launch reads:
    ((z·W_ihᵀ + hp·W_hhᵀ) + b_ih) + b_hh, entry by entry. -/
def gateRow (z hp : S1x4096.Idx → EReal) (wih whh : S16384x4096.Idx → EReal) (b1 b2 : S1x16384.Idx → EReal) :
    S1x16384.Idx → Elt Ideal .f32 :=
  fun i => (((∑ k : Fin 4096, z (stateAt i k) * wih (weightAt i k)) + ∑ k : Fin 4096, hp (stateAt i k) * whh (weightAt i k))
    + b1 i) + b2 i

/-- The body's value at entry `y` of its block is the gate row's entry `i`, when the six blocks hold, at the entries
    `y` depends on, what the six arrays hold at the entries `i` depends on. -/
theorem point_eq (x0 x1 : Vec Ideal S1x4096 .f32) (x2 x3 : Vec Ideal S256x4096 .f32) (x4 x5 : Vec Ideal S1x256 .f32)
    (z hp : S1x4096.Idx → EReal) (wih whh : S16384x4096.Idx → EReal) (b1 b2 : S1x16384.Idx → EReal)
    (y : S1x256.Idx) (i : S1x16384.Idx)
    (h0 : ∀ k, x0 (rowAt y k) = z (stateAt i k)) (h1 : ∀ k, x1 (rowAt y k) = hp (stateAt i k))
    (h2 : ∀ k, x2 (blockAt y k) = wih (weightAt i k)) (h3 : ∀ k, x3 (blockAt y k) = whh (weightAt i k))
    (h4 : x4 y = b1 i) (h5 : x5 y = b2 i) :
    k1_pay1 (F := Ideal) x0 x1 x2 x3 x4 x5 y = gateRow z hp wih whh b1 b2 i := by
  rw [pay_apply]
  unfold gateRow
  simp only [h0, h1, h2, h3, h4, h5]

/-- The zero offsets of a load or store of a whole block, spelt as a function. -/
theorem zero_offsets : (![0, 0] : Fin 2 → Nat) = fun _ => 0 := funext fun a => by fin_cases a <;> rfl

/-- The index maps over the 64 points: the blocks of `z` and `hp` are the whole rows at every point, the weight blocks
    move down the rows with the point, the bias blocks and the output block move along the row with it. -/
theorem block_indices : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = t.val
    ∧ win1_5.index t (0 : Fin 2) = 0 ∧ win1_5.index t (1 : Fin 2) = t.val
    ∧ win1_6.index t (0 : Fin 2) = 0 ∧ win1_6.index t (1 : Fin 2) = t.val :=
  (by decide +kernel : ∀ t : Fin grid1.N, _)

/-- What point `t` writes back is block `t` of the gate row of the launch's entry arrays. -/
theorem writes_block (c : Dev nD) (t : Fin cfg1.N) :
    (dat1 (F := Ideal) V c).flushed 6 t = ((cfg1.win 6).blk t).view.read (Elt Ideal)
      (gateRow (V c main_v6) (V c main_v4) (V c main_arg8) (V c main_arg10) (V c main_v1) (V c main_v2)) := by
  show (cfg1.win 6).cut (grid1.coords t) ((dat1 V c).after 6 t) = _
  rw [after1_6]
  unfold out1_6
  rw [View.canon_unit_zero zero_offsets]
  simp only [View.ld_unit_zero (S := S1x4096) zero_offsets, View.ld_unit_zero (S := S256x4096) zero_offsets,
    View.ld_unit_zero (S := S1x256) zero_offsets]
  obtain ⟨e00, e01, e10, e11, e20, e21, e30, e31, e40, e41, e50, e51, e60, e61⟩ := block_indices t
  funext j
  show k1_pay1 (F := Ideal) (iblk1 V c 0 t) (iblk1 V c 1 t) (iblk1 V c 2 t) (iblk1 V c 3 t) (iblk1 V c 4 t) (iblk1 V c 5 t) j
    = gateRow (V c main_v6) (V c main_v4) (V c main_arg8) (V c main_arg10) (V c main_v1) (V c main_v2) (((cfg1.win 6).blk t).view.emb j)
  have hj0 : (j 0).val < 1 := (j 0).isLt
  have hj1 : (j 1).val < 256 := (j 1).isLt
  refine point_eq _ _ _ _ _ _ _ _ _ _ _ _ j _ (fun k => ?_) (fun k => ?_) (fun k => ?_) (fun k => ?_) ?_ ?_
  · show V c main_v6 (((cfg1.win 0).blk t).view.emb (rowAt j k)) = _
    refine congrArg (V c main_v6) (funext fun a => Fin.ext ?_)
    match a with
    | ⟨0, _⟩ => show win1_0.index t (0 : Fin 2) * 1 + 1 * (j 0).val = win1_6.index t (0 : Fin 2) * 1 + 1 * (j 0).val; omega
    | ⟨1, _⟩ => show win1_0.index t (1 : Fin 2) * 4096 + 1 * k.val = k.val; omega
  · show V c main_v4 (((cfg1.win 1).blk t).view.emb (rowAt j k)) = _
    refine congrArg (V c main_v4) (funext fun a => Fin.ext ?_)
    match a with
    | ⟨0, _⟩ => show win1_1.index t (0 : Fin 2) * 1 + 1 * (j 0).val = win1_6.index t (0 : Fin 2) * 1 + 1 * (j 0).val; omega
    | ⟨1, _⟩ => show win1_1.index t (1 : Fin 2) * 4096 + 1 * k.val = k.val; omega
  · show V c main_arg8 (((cfg1.win 2).blk t).view.emb (blockAt j k)) = _
    refine congrArg (V c main_arg8) (funext fun a => Fin.ext ?_)
    match a with
    | ⟨0, _⟩ => show win1_2.index t (0 : Fin 2) * 256 + 1 * (j 1).val = win1_6.index t (1 : Fin 2) * 256 + 1 * (j 1).val; omega
    | ⟨1, _⟩ => show win1_2.index t (1 : Fin 2) * 4096 + 1 * k.val = k.val; omega
  · show V c main_arg10 (((cfg1.win 3).blk t).view.emb (blockAt j k)) = _
    refine congrArg (V c main_arg10) (funext fun a => Fin.ext ?_)
    match a with
    | ⟨0, _⟩ => show win1_3.index t (0 : Fin 2) * 256 + 1 * (j 1).val = win1_6.index t (1 : Fin 2) * 256 + 1 * (j 1).val; omega
    | ⟨1, _⟩ => show win1_3.index t (1 : Fin 2) * 4096 + 1 * k.val = k.val; omega
  · show V c main_v1 (((cfg1.win 4).blk t).view.emb j) = _
    refine congrArg (V c main_v1) (funext fun a => Fin.ext ?_)
    match a with
    | ⟨0, _⟩ => show win1_4.index t (0 : Fin 2) * 1 + 1 * (j 0).val = win1_6.index t (0 : Fin 2) * 1 + 1 * (j 0).val; omega
    | ⟨1, _⟩ => show win1_4.index t (1 : Fin 2) * 256 + 1 * (j 1).val = win1_6.index t (1 : Fin 2) * 256 + 1 * (j 1).val; omega
  · show V c main_v2 (((cfg1.win 5).blk t).view.emb j) = _
    refine congrArg (V c main_v2) (funext fun a => Fin.ext ?_)
    match a with
    | ⟨0, _⟩ => show win1_5.index t (0 : Fin 2) * 1 + 1 * (j 0).val = win1_6.index t (0 : Fin 2) * 1 + 1 * (j 0).val; omega
    | ⟨1, _⟩ => show win1_5.index t (1 : Fin 2) * 256 + 1 * (j 1).val = win1_6.index t (1 : Fin 2) * 256 + 1 * (j 1).val; omega

/-! ## The 64 blocks tile the row -/

/-- An entry of the row is in point `t`'s block iff each coordinate is in the block's range on its axis. -/
theorem mem_block (t : Fin cfg1.N) (i : S1x16384.Idx) :
    i ∈ ((cfg1.win 6).blk t).view.set ↔ ∀ a : Fin 2, win1_6.index t a * S1x256.size a ≤ (i a).val
      ∧ (i a).val < win1_6.index t a * S1x256.size a + S1x256.size a := by
  show i ∈ ((View.whole main_v7).slice (win1_6.rect t)).set ↔ _
  rw [View.set_slice_whole, Rect.mem_set_unit]
  exact Iff.rfl

/-- Entry (0, n) of the row is in the block of point n / 256. -/
theorem tiled (i : S1x16384.Idx) :
    ∃ t : Fin cfg1.N, (cfg1.win 6).flush t = true ∧ i ∈ ((cfg1.win 6).blk t).view.set := by
  have hi0 : (i 0).val < 1 := (i 0).isLt
  have hi1 : (i 1).val < 16384 := (i 1).isLt
  have ht : (i 1).val / 256 < cfg1.N := by show (i 1).val / 256 < 64; omega
  refine ⟨⟨(i 1).val / 256, ht⟩, flush1_6 _, ?_⟩
  rw [mem_block]
  obtain ⟨-, -, -, -, -, -, -, -, -, -, -, -, e60, e61⟩ := block_indices ⟨(i 1).val / 256, ht⟩
  intro a
  match a with
  | ⟨0, _⟩ =>
    show win1_6.index ⟨(i 1).val / 256, ht⟩ (0 : Fin 2) * 1 ≤ (i 0).val ∧ (i 0).val < win1_6.index ⟨(i 1).val / 256, ht⟩ (0 : Fin 2) * 1 + 1
    omega
  | ⟨1, _⟩ =>
    show win1_6.index ⟨(i 1).val / 256, ht⟩ (1 : Fin 2) * 256 ≤ (i 1).val ∧ (i 1).val < win1_6.index ⟨(i 1).val / 256, ht⟩ (1 : Fin 2) * 256 + 256
    have e : win1_6.index ⟨(i 1).val / 256, ht⟩ (1 : Fin 2) = (i 1).val / 256 := e61
    omega

/-- After the second launch its output array holds the reference's gate row of the launch's entry arrays, provided
    the two bias windows' arrays are the bias vectors given a leading unit axis. -/
theorem array_eq (c : Dev nD) (bih bhh : (⟨S16384, .f32⟩ : BufTy).Contents (Elt Ideal))
    (h1 : V c main_v1 = shapeCast S1x16384 bih shapeCasts_S16384_S1x16384)
    (h2 : V c main_v2 = shapeCast S1x16384 bhh shapeCasts_S16384_S1x16384) :
    (dat1 (F := Ideal) V c).arrAt 6 cfg1.N
      = gatesOf (F := Ideal) (V c main_v6) (V c main_v4) (V c main_arg8) bih (V c main_arg10) bhh := by
  -- every point writes its block of one row (the body's order of addition), and the blocks tile the row
  rw [(dat1 (F := Ideal) V c).arrAt_eq_of_cover 6
    (gateRow (V c main_v6) (V c main_v4) (V c main_arg8) (V c main_arg10) (V c main_v1) (V c main_v2))
    (fun t _ => writes_block V c t) tiled]
  funext i
  rw [gatesOf_apply]
  unfold gateRow
  rw [h1, h2, leadBias_apply, leadBias_apply]
  -- (A + B) + b = (A + b) + B in a commutative monoid
  exact congrArg (· + bhh (biasAt i)) (add_right_comm _ _ _)

end Cert.KernelIdeal.GatesRegion

end
-- ==== Proof.CellRegion.lean ====
/-
  The third launch, one grid point over whole arrays: from the gate row and the previous cell state it writes the
  new cell state c' = σ(f)·cp + σ(i)·tanh(g), the new hidden state h' = σ(o)·tanh(c'), the blended rate
  a = u·a_pre + (1 − u)·σ(h'·W3ᵀ + b3) and the lagged output y1 = a·u + (1 − a)·y_pre. The kernel's σ is the one
  operation logistic, the reference's is 1 / (1 + exp(−v)) spelt out: over the extended reals these are one function.
  The kernel's h'·W3ᵀ is a lane sum of products, the reference's a one-column matrix product: the same finite sum.
-/
import proofs.«169435_j88622355185707_1_alg».proof.Proof.Gen.KernelIdeal.Frame
import proofs.«169435_j88622355185707_1_alg».proof.Proof.RefStages
import Idealize.ShloMosaic.Lib.IdealHost
import Idealize.ShloMosaic.Lib.Pipeline.Value

set_option maxRecDepth 16384

noncomputable section

namespace Cert.KernelIdeal.CellRegion

open Cert.KernelIdeal Cert.KernelIdeal.Gen Idealize.ShloMosaic Idealize.ShloMosaic.TcCoe Idealize.SL.Sem
open Idealize.ShloMosaic.Pipeline (Dat)
open Cert.RefStages

/-! ## The logistic function, spelt both ways -/

/-- The row of ones is 1 at every entry. -/
theorem onesRow_apply (j : S1x4096.Idx) : onesRow (F := Ideal) j = 1 :=
  (ValueIdx.broadcastInDim_scalar_apply _ _ j).trans Ideal.ofBits_one_f32

/-- The [1,1] array of 1.0 is 1 at its entry. -/
theorem onesCell_apply (j : S1x1.Idx) : onesCell (F := Ideal) j = 1 :=
  (ValueIdx.broadcastInDim_scalar_apply _ _ j).trans Ideal.ofBits_one_f32

/-- Over the extended reals 1 / (1 + exp(−v)) entry by entry IS the logistic function: a row. -/
theorem sigRow_eq (v : FVec Ideal S1x4096 .f32) : sigRow (F := Ideal) v = (logistic v : FVec Ideal S1x4096 .f32) := by
  funext j
  show Ideal.div (onesRow (F := Ideal) j) (onesRow (F := Ideal) j + Ideal.exp (-(v j))) = Ideal.logistic (v j)
  rw [onesRow_apply]
  rfl

/-- The same for a [1,1] array. -/
theorem sigCell_eq (v : FVec Ideal S1x1 .f32) : sigCell (F := Ideal) v = (logistic v : FVec Ideal S1x1 .f32) := by
  funext j
  show Ideal.div (onesCell (F := Ideal) j) (onesCell (F := Ideal) j + Ideal.exp (-(v j))) = Ideal.logistic (v j)
  rw [onesCell_apply]
  rfl

/-! ## The cell state and the hidden state: entry by entry the same operations -/

/-- The kernel's cell-state payload is the reference's cell stage of the same two rows. -/
theorem pay_cell (g : Vec Ideal S1x16384 .f32) (cp : Vec Ideal S1x4096 .f32) :
    k2_pay3 (F := Ideal) g cp = cellOf (F := Ideal) g cp := by
  unfold cellOf
  rw [sigRow_eq, sigRow_eq]
  unfold k2_pay3 k2_pay2
  simp only [shapeCast_self]
  rfl

/-- The kernel's hidden-state payload is the reference's hidden stage. -/
theorem pay_hidden (g : Vec Ideal S1x16384 .f32) (cp : Vec Ideal S1x4096 .f32) :
    k2_pay4 (F := Ideal) g cp = hiddenOf (F := Ideal) g cp := by
  unfold hiddenOf
  rw [sigRow_eq, ← pay_cell]
  unfold k2_pay4 k2_pay2
  simp only [shapeCast_self]
  rfl

/-! ## The head: a lane sum of products against a one-column matrix product -/

/-- Two indices of a [1,4096] row with the same lane are one index: the leading coordinate has one value. -/
theorem row_ext (p q : S1x4096.Idx) (h : (p 1).val = (q 1).val) : p = q := by
  funext a; apply Fin.ext
  match a with
  | ⟨0, _⟩ =>
    have hp : (p 0).val < 1 := (p 0).isLt
    have hq : (q 0).val < 1 := (q 0).isLt
    show (p 0).val = (q 0).val; omega
  | ⟨1, _⟩ => exact h

/-- A one-entry array has one index. -/
theorem one_ext (p q : S1.Idx) : p = q := by
  funext a; apply Fin.ext
  match a with
  | ⟨0, _⟩ =>
    have hp : (p 0).val < 1 := (p 0).isLt
    have hq : (q 0).val < 1 := (q 0).isLt
    show (p 0).val = (q 0).val; omega

/-- The kernel's lane sum of the products h·w, given its unit second axis, is ∑ₖ h(0,k)·w(0,k). -/
theorem laneSum_apply (h w : FVec Ideal S1x4096 .f32) (j : S1x1.Idx) :
    (shapeCast S1x1 (multiReduction (F := Ideal) .add [1] S1 (mulf h w) 0x00000000#32 reduces_S1x4096_S1 (.inl rfl) rfl)
        shapeCasts_S1_S1x1 : FVec Ideal S1x1 .f32) j
      = ∑ k : Fin 4096, h (ValueIdx.ix2 0 k) * w (ValueIdx.ix2 0 k) := by
  refine (shapeCast_apply _ shapeCasts_S1_S1x1 j (ValueIdx.ix1 (0 : Fin 1)) ?_).trans ?_
  · have h1 : (S1.rowMajor (ValueIdx.ix1 (0 : Fin 1))).val < 1 := (S1.rowMajor (ValueIdx.ix1 (0 : Fin 1))).isLt
    have h2 : (S1x1.rowMajor j).val < 1 := (S1x1.rowMajor j).isLt
    omega
  · refine (Ideal.multiReduction_add_single _ _ reduces_S1x4096_S1 _ _ _).trans ?_
    refine Finset.sum_congr rfl fun k _ => ?_
    have e : reduces_S1x4096_S1.lift (ValueIdx.ix1 (0 : Fin 1)) k = ValueIdx.ix2 0 k := row_ext _ _ rfl
    rw [e]
    rfl

/-- The reference's product of the row h with the transposed row w3, a [1,1] array, is the same sum. -/
theorem dot_apply (h w3 : FVec Ideal S1x4096 .f32) (j : S1x1.Idx) :
    Host.dotGeneral (F := Ideal) Cert.ReferenceIdeal.dot_S1x4096_S4096x1_S1x1_1_0_0_1_n_n none h
        (transpose Cert.ReferenceIdeal.S4096x1 [1, 0] w3 Cert.ReferenceIdeal.Gen.transposes_S1x4096_S4096x1_1_0) j
      = ∑ k : Fin 4096, h (ValueIdx.ix2 0 k) * w3 (ValueIdx.ix2 0 k) := by
  simp only [Host.dotGeneral]
  rw [Ideal.dotGeneral_apply, ← Equiv.sum_comp (ValueIdx.contrEquiv1 Cert.ReferenceIdeal.dot_S1x4096_S4096x1_S1x1_1_0_0_1_n_n 4096 rfl rfl).symm]
  refine Finset.sum_congr rfl fun k _ => ?_
  have hk := ValueIdx.contrEquiv1_symm_val Cert.ReferenceIdeal.dot_S1x4096_S4096x1_S1x1_1_0_0_1_n_n 4096 rfl rfl k
  have el : Cert.ReferenceIdeal.dot_S1x4096_S4096x1_S1x1_1_0_0_1_n_n.lhsIdx j
      ((ValueIdx.contrEquiv1 Cert.ReferenceIdeal.dot_S1x4096_S4096x1_S1x1_1_0_0_1_n_n 4096 rfl rfl).symm k) = ValueIdx.ix2 0 k :=
    row_ext _ _ ((Cert.ReferenceIdeal.Read.lhs_main_v45_1 _ _).trans hk)
  have er : transpose Cert.ReferenceIdeal.S4096x1 [1, 0] w3 Cert.ReferenceIdeal.Gen.transposes_S1x4096_S4096x1_1_0
      (Cert.ReferenceIdeal.dot_S1x4096_S4096x1_S1x1_1_0_0_1_n_n.rhsIdx j
        ((ValueIdx.contrEquiv1 Cert.ReferenceIdeal.dot_S1x4096_S4096x1_S1x1_1_0_0_1_n_n 4096 rfl rfl).symm k)) = w3 (ValueIdx.ix2 0 k) :=
    (Cert.ReferenceIdeal.Read.val_main_v44_apply (F := Ideal) w3
      (Cert.ReferenceIdeal.dot_S1x4096_S4096x1_S1x1_1_0_0_1_n_n.rhsIdx j
        ((ValueIdx.contrEquiv1 Cert.ReferenceIdeal.dot_S1x4096_S4096x1_S1x1_1_0_0_1_n_n 4096 rfl rfl).symm k))).trans
      (congrArg w3 (row_ext _ _ ((Cert.ReferenceIdeal.Read.rhs_main_v45_0 j _).trans hk)))
  rw [el, er]

/-- The kernel's splat of 1.0 over a [1,1] vector is the reference's [1,1] array of 1.0. -/
theorem ones_splat : (broadcast S1x1 (FloatOps.ofBits (F := Ideal) .f32 0x3F800000#32) : FVec Ideal S1x1 .f32) = onesCell (F := Ideal) :=
  funext fun j => Ideal.ofBits_one_f32.trans (onesCell_apply j).symm

/-- The kernel's blended-rate payload, its bias window holding the one-entry bias with a leading unit axis, is the
    reference's rate stage of the hidden state. -/
theorem pay_rate (g : Vec Ideal S1x16384 .f32) (cp w3 : Vec Ideal S1x4096 .f32) (b3 : Vec Ideal S1 .f32)
    (u apre : Vec Ideal S1x1 .f32) :
    k2_pay5 (F := Ideal) g cp w3 (shapeCast S1x1 b3 shapeCasts_S1_S1x1) u apre
      = rateOf (F := Ideal) (hiddenOf (F := Ideal) g cp) w3 b3 u apre := by
  unfold rateOf
  rw [sigCell_eq, ← pay_hidden]
  unfold k2_pay5
  dsimp only
  have e1 : (shapeCast S1x1 (multiReduction (F := Ideal) .add [1] S1 (mulf (k2_pay4 (F := Ideal) g cp) w3) 0x00000000#32 reduces_S1x4096_S1 (.inl rfl) rfl)
        shapeCasts_S1_S1x1 : FVec Ideal S1x1 .f32)
      = Host.dotGeneral (F := Ideal) Cert.ReferenceIdeal.dot_S1x4096_S4096x1_S1x1_1_0_0_1_n_n none (k2_pay4 (F := Ideal) g cp)
        (transpose Cert.ReferenceIdeal.S4096x1 [1, 0] w3 Cert.ReferenceIdeal.Gen.transposes_S1x4096_S4096x1_1_0) :=
    funext fun j => (laneSum_apply _ _ j).trans (dot_apply _ _ j).symm
  have e2 : (shapeCast S1x1 (shapeCast S1x1 b3 shapeCasts_S1_S1x1) shapeCasts_S1x1_S1x1 : FVec Ideal S1x1 .f32)
      = broadcastInDim Cert.ReferenceIdeal.S1x1 ![1] Cert.ReferenceIdeal.Gen.bcast_S1_S1x1_1 b3 := by
    rw [shapeCast_self]
    funext j
    refine (shapeCast_apply b3 shapeCasts_S1_S1x1 j (ValueIdx.ix1 (0 : Fin 1)) ?_).trans ?_
    · have h1 : (S1.rowMajor (ValueIdx.ix1 (0 : Fin 1))).val < 1 := (S1.rowMajor (ValueIdx.ix1 (0 : Fin 1))).isLt
      have h2 : (S1x1.rowMajor j).val < 1 := (S1x1.rowMajor j).isLt
      omega
    · exact ((Cert.ReferenceIdeal.Read.val_main_v46_apply (F := Ideal) b3 j).trans (congrArg b3 (one_ext _ _))).symm
  rw [e1, e2, ones_splat]

/-- The kernel's lagged-output payload, fed the rate a and the product a·u, is the reference's lag stage. -/
theorem pay_lag (a u ypre : Vec Ideal S1x1 .f32) :
    k2_pay1 (F := Ideal) a (mulf a u) ypre = lagOf (F := Ideal) a u ypre := by
  unfold lagOf k2_pay1
  dsimp only
  rw [ones_splat]

/-! ## One grid point, whole arrays: each window's block is its array -/

-- The TensorCore's buffer contents when the launch is entered: everything below holds for any such contents.
variable (V : (c : Dev nD) → (b : Ref sig .tc) → Buf (Elt Ideal) ((c : Thread nD τ).loc b))

/-- The zero offset of every access of the body, as the constant function. -/
theorem zero_off : (![0, 0] : Fin 2 → Nat) = fun _ => 0 := funext fun a => by fin_cases a <;> rfl

/-- Every window's block index is 0 on both axes at the one grid point (decided over the grid, window by window). -/
theorem index_zero_0 : ∀ (t : Fin cfg2.N) (a : Fin 2), win2_0.index t a = 0 := (by decide +kernel : ∀ (t : Fin grid2.N) (a : Fin 2), win2_0.index t a = 0)
theorem index_zero_1 : ∀ (t : Fin cfg2.N) (a : Fin 2), win2_1.index t a = 0 := (by decide +kernel : ∀ (t : Fin grid2.N) (a : Fin 2), win2_1.index t a = 0)
theorem index_zero_2 : ∀ (t : Fin cfg2.N) (a : Fin 2), win2_2.index t a = 0 := (by decide +kernel : ∀ (t : Fin grid2.N) (a : Fin 2), win2_2.index t a = 0)
theorem index_zero_3 : ∀ (t : Fin cfg2.N) (a : Fin 2), win2_3.index t a = 0 := (by decide +kernel : ∀ (t : Fin grid2.N) (a : Fin 2), win2_3.index t a = 0)
theorem index_zero_4 : ∀ (t : Fin cfg2.N) (a : Fin 2), win2_4.index t a = 0 := (by decide +kernel : ∀ (t : Fin grid2.N) (a : Fin 2), win2_4.index t a = 0)
theorem index_zero_5 : ∀ (t : Fin cfg2.N) (a : Fin 2), win2_5.index t a = 0 := (by decide +kernel : ∀ (t : Fin grid2.N) (a : Fin 2), win2_5.index t a = 0)
theorem index_zero_6 : ∀ (t : Fin cfg2.N) (a : Fin 2), win2_6.index t a = 0 := (by decide +kernel : ∀ (t : Fin grid2.N) (a : Fin 2), win2_6.index t a = 0)
theorem index_zero_7 : ∀ (t : Fin cfg2.N) (a : Fin 2), win2_7.index t a = 0 := (by decide +kernel : ∀ (t : Fin grid2.N) (a : Fin 2), win2_7.index t a = 0)
theorem index_zero_8 : ∀ (t : Fin cfg2.N) (a : Fin 2), win2_8.index t a = 0 := (by decide +kernel : ∀ (t : Fin grid2.N) (a : Fin 2), win2_8.index t a = 0)
theorem index_zero_9 : ∀ (t : Fin cfg2.N) (a : Fin 2), win2_9.index t a = 0 := (by decide +kernel : ∀ (t : Fin grid2.N) (a : Fin 2), win2_9.index t a = 0)
theorem index_zero_10 : ∀ (t : Fin cfg2.N) (a : Fin 2), win2_10.index t a = 0 := (by decide +kernel : ∀ (t : Fin grid2.N) (a : Fin 2), win2_10.index t a = 0)

/-- The gate window's block is the whole gate row. -/
theorem blk_gates (c : Dev nD) (t : Fin cfg2.N) : (iblk2 V c 0 t : Vec Ideal S1x16384 .f32) = V c main_v7 := by
  have e0 : win2_0.index t (0 : Fin 2) = 0 := index_zero_0 t 0
  have e1 : win2_0.index t (1 : Fin 2) = 0 := index_zero_0 t 1
  funext j
  show V c main_v7 (((cfg2.win 0).blk t).view.emb j) = V c main_v7 j
  refine congrArg (V c main_v7) (funext fun a => Fin.ext ?_)
  match a with
  | ⟨0, _⟩ => show win2_0.index t (0 : Fin 2) * 1 + 1 * (j 0).val = (j 0).val; omega
  | ⟨1, _⟩ => show win2_0.index t (1 : Fin 2) * 16384 + 1 * (j 1).val = (j 1).val; omega

/-- The previous cell state's block is the whole row. -/
theorem blk_cp (c : Dev nD) (t : Fin cfg2.N) : (iblk2 V c 1 t : Vec Ideal S1x4096 .f32) = V c main_v5 := by
  have e0 : win2_1.index t (0 : Fin 2) = 0 := index_zero_1 t 0
  have e1 : win2_1.index t (1 : Fin 2) = 0 := index_zero_1 t 1
  funext j
  show V c main_v5 (((cfg2.win 1).blk t).view.emb j) = V c main_v5 j
  refine congrArg (V c main_v5) (funext fun a => Fin.ext ?_)
  match a with
  | ⟨0, _⟩ => show win2_1.index t (0 : Fin 2) * 1 + 1 * (j 0).val = (j 0).val; omega
  | ⟨1, _⟩ => show win2_1.index t (1 : Fin 2) * 4096 + 1 * (j 1).val = (j 1).val; omega

/-- The head's weight row likewise. -/
theorem blk_w3 (c : Dev nD) (t : Fin cfg2.N) : (iblk2 V c 2 t : Vec Ideal S1x4096 .f32) = V c main_arg12 := by
  have e0 : win2_2.index t (0 : Fin 2) = 0 := index_zero_2 t 0
  have e1 : win2_2.index t (1 : Fin 2) = 0 := index_zero_2 t 1
  funext j
  show V c main_arg12 (((cfg2.win 2).blk t).view.emb j) = V c main_arg12 j
  refine congrArg (V c main_arg12) (funext fun a => Fin.ext ?_)
  match a with
  | ⟨0, _⟩ => show win2_2.index t (0 : Fin 2) * 1 + 1 * (j 0).val = (j 0).val; omega
  | ⟨1, _⟩ => show win2_2.index t (1 : Fin 2) * 4096 + 1 * (j 1).val = (j 1).val; omega

/-- The bias window's block is its [1,1] array. -/
theorem blk_b3 (c : Dev nD) (t : Fin cfg2.N) : (iblk2 V c 3 t : Vec Ideal S1x1 .f32) = V c main_v3 := by
  have e0 : win2_3.index t (0 : Fin 2) = 0 := index_zero_3 t 0
  have e1 : win2_3.index t (1 : Fin 2) = 0 := index_zero_3 t 1
  funext j
  show V c main_v3 (((cfg2.win 3).blk t).view.emb j) = V c main_v3 j
  refine congrArg (V c main_v3) (funext fun a => Fin.ext ?_)
  match a with
  | ⟨0, _⟩ => show win2_3.index t (0 : Fin 2) * 1 + 1 * (j 0).val = (j 0).val; omega
  | ⟨1, _⟩ => show win2_3.index t (1 : Fin 2) * 1 + 1 * (j 1).val = (j 1).val; omega

/-- The input u likewise. -/
theorem blk_u (c : Dev nD) (t : Fin cfg2.N) : (iblk2 V c 4 t : Vec Ideal S1x1 .f32) = V c main_arg1 := by
  have e0 : win2_4.index t (0 : Fin 2) = 0 := index_zero_4 t 0
  have e1 : win2_4.index t (1 : Fin 2) = 0 := index_zero_4 t 1
  funext j
  show V c main_arg1 (((cfg2.win 4).blk t).view.emb j) = V c main_arg1 j
  refine congrArg (V c main_arg1) (funext fun a => Fin.ext ?_)
  match a with
  | ⟨0, _⟩ => show win2_4.index t (0 : Fin 2) * 1 + 1 * (j 0).val = (j 0).val; omega
  | ⟨1, _⟩ => show win2_4.index t (1 : Fin 2) * 1 + 1 * (j 1).val = (j 1).val; omega

/-- The previous output likewise. -/
theorem blk_ypre (c : Dev nD) (t : Fin cfg2.N) : (iblk2 V c 5 t : Vec Ideal S1x1 .f32) = V c main_arg4 := by
  have e0 : win2_5.index t (0 : Fin 2) = 0 := index_zero_5 t 0
  have e1 : win2_5.index t (1 : Fin 2) = 0 := index_zero_5 t 1
  funext j
  show V c main_arg4 (((cfg2.win 5).blk t).view.emb j) = V c main_arg4 j
  refine congrArg (V c main_arg4) (funext fun a => Fin.ext ?_)
  match a with
  | ⟨0, _⟩ => show win2_5.index t (0 : Fin 2) * 1 + 1 * (j 0).val = (j 0).val; omega
  | ⟨1, _⟩ => show win2_5.index t (1 : Fin 2) * 1 + 1 * (j 1).val = (j 1).val; omega

/-- The previous rate likewise. -/
theorem blk_apre (c : Dev nD) (t : Fin cfg2.N) : (iblk2 V c 6 t : Vec Ideal S1x1 .f32) = V c main_arg5 := by
  have e0 : win2_6.index t (0 : Fin 2) = 0 := index_zero_6 t 0
  have e1 : win2_6.index t (1 : Fin 2) = 0 := index_zero_6 t 1
  funext j
  show V c main_arg5 (((cfg2.win 6).blk t).view.emb j) = V c main_arg5 j
  refine congrArg (V c main_arg5) (funext fun a => Fin.ext ?_)
  match a with
  | ⟨0, _⟩ => show win2_6.index t (0 : Fin 2) * 1 + 1 * (j 0).val = (j 0).val; omega
  | ⟨1, _⟩ => show win2_6.index t (1 : Fin 2) * 1 + 1 * (j 1).val = (j 1).val; omega

/-- The hidden-state window: read through its one block, an array of that window's shape is itself. -/
theorem whole_hidden (t : Fin cfg2.N) (G : Vec Ideal S1x4096 .f32) :
    (cfg2.win 7).cut (grid2.coords t) G = ((cfg2.win 7).blk t).view.read (Elt Ideal) G := by
  have e0 : win2_7.index t (0 : Fin 2) = 0 := index_zero_7 t 0
  have e1 : win2_7.index t (1 : Fin 2) = 0 := index_zero_7 t 1
  funext j
  show G ((win2 7).xinj (grid2.coords t) j) = G (((cfg2.win 7).blk t).view.emb j)
  refine congrArg G (funext fun a => Fin.ext ?_)
  match a with
  | ⟨0, _⟩ => show (j 0).val = win2_7.index t (0 : Fin 2) * 1 + 1 * (j 0).val; omega
  | ⟨1, _⟩ => show (j 1).val = win2_7.index t (1 : Fin 2) * 4096 + 1 * (j 1).val; omega

/-- and that block holds every index of the array. -/
theorem cover_hidden (i : S1x4096.Idx) :
    ∃ t : Fin cfg2.N, (cfg2.win 7).flush t = true ∧ i ∈ ((cfg2.win 7).blk t).view.set := by
  refine ⟨t2_0, flush2_7 _, ?_⟩
  have e0 : win2_7.index t2_0 (0 : Fin 2) = 0 := index_zero_7 t2_0 0
  have e1 : win2_7.index t2_0 (1 : Fin 2) = 0 := index_zero_7 t2_0 1
  show i ∈ ((View.whole main_v8_0).slice (win2_7.rect t2_0)).set
  rw [View.set_slice_whole, Rect.mem_set_unit]
  intro a
  match a with
  | ⟨0, _⟩ =>
    have hi : (i 0).val < 1 := (i 0).isLt
    show win2_7.index t2_0 (0 : Fin 2) * 1 ≤ (i 0).val ∧ (i 0).val < win2_7.index t2_0 (0 : Fin 2) * 1 + 1
    omega
  | ⟨1, _⟩ =>
    have hi : (i 1).val < 4096 := (i 1).isLt
    show win2_7.index t2_0 (1 : Fin 2) * 4096 ≤ (i 1).val ∧ (i 1).val < win2_7.index t2_0 (1 : Fin 2) * 4096 + 4096
    omega

/-- The cell-state window: read through its one block, an array of that window's shape is itself. -/
theorem whole_cell (t : Fin cfg2.N) (G : Vec Ideal S1x4096 .f32) :
    (cfg2.win 8).cut (grid2.coords t) G = ((cfg2.win 8).blk t).view.read (Elt Ideal) G := by
  have e0 : win2_8.index t (0 : Fin 2) = 0 := index_zero_8 t 0
  have e1 : win2_8.index t (1 : Fin 2) = 0 := index_zero_8 t 1
  funext j
  show G ((win2 8).xinj (grid2.coords t) j) = G (((cfg2.win 8).blk t).view.emb j)
  refine congrArg G (funext fun a => Fin.ext ?_)
  match a with
  | ⟨0, _⟩ => show (j 0).val = win2_8.index t (0 : Fin 2) * 1 + 1 * (j 0).val; omega
  | ⟨1, _⟩ => show (j 1).val = win2_8.index t (1 : Fin 2) * 4096 + 1 * (j 1).val; omega

/-- and that block holds every index of the array. -/
theorem cover_cell (i : S1x4096.Idx) :
    ∃ t : Fin cfg2.N, (cfg2.win 8).flush t = true ∧ i ∈ ((cfg2.win 8).blk t).view.set := by
  refine ⟨t2_0, flush2_8 _, ?_⟩
  have e0 : win2_8.index t2_0 (0 : Fin 2) = 0 := index_zero_8 t2_0 0
  have e1 : win2_8.index t2_0 (1 : Fin 2) = 0 := index_zero_8 t2_0 1
  show i ∈ ((View.whole main_v8_1).slice (win2_8.rect t2_0)).set
  rw [View.set_slice_whole, Rect.mem_set_unit]
  intro a
  match a with
  | ⟨0, _⟩ =>
    have hi : (i 0).val < 1 := (i 0).isLt
    show win2_8.index t2_0 (0 : Fin 2) * 1 ≤ (i 0).val ∧ (i 0).val < win2_8.index t2_0 (0 : Fin 2) * 1 + 1
    omega
  | ⟨1, _⟩ =>
    have hi : (i 1).val < 4096 := (i 1).isLt
    show win2_8.index t2_0 (1 : Fin 2) * 4096 ≤ (i 1).val ∧ (i 1).val < win2_8.index t2_0 (1 : Fin 2) * 4096 + 4096
    omega

/-- The lagged-output window: read through its one block, an array of that window's shape is itself. -/
theorem whole_lag (t : Fin cfg2.N) (G : Vec Ideal S1x1 .f32) :
    (cfg2.win 9).cut (grid2.coords t) G = ((cfg2.win 9).blk t).view.read (Elt Ideal) G := by
  have e0 : win2_9.index t (0 : Fin 2) = 0 := index_zero_9 t 0
  have e1 : win2_9.index t (1 : Fin 2) = 0 := index_zero_9 t 1
  funext j
  show G ((win2 9).xinj (grid2.coords t) j) = G (((cfg2.win 9).blk t).view.emb j)
  refine congrArg G (funext fun a => Fin.ext ?_)
  match a with
  | ⟨0, _⟩ => show (j 0).val = win2_9.index t (0 : Fin 2) * 1 + 1 * (j 0).val; omega
  | ⟨1, _⟩ => show (j 1).val = win2_9.index t (1 : Fin 2) * 1 + 1 * (j 1).val; omega

/-- and that block holds every index of the array. -/
theorem cover_lag (i : S1x1.Idx) :
    ∃ t : Fin cfg2.N, (cfg2.win 9).flush t = true ∧ i ∈ ((cfg2.win 9).blk t).view.set := by
  refine ⟨t2_0, flush2_9 _, ?_⟩
  have e0 : win2_9.index t2_0 (0 : Fin 2) = 0 := index_zero_9 t2_0 0
  have e1 : win2_9.index t2_0 (1 : Fin 2) = 0 := index_zero_9 t2_0 1
  show i ∈ ((View.whole main_v8_2).slice (win2_9.rect t2_0)).set
  rw [View.set_slice_whole, Rect.mem_set_unit]
  intro a
  match a with
  | ⟨0, _⟩ =>
    have hi : (i 0).val < 1 := (i 0).isLt
    show win2_9.index t2_0 (0 : Fin 2) * 1 ≤ (i 0).val ∧ (i 0).val < win2_9.index t2_0 (0 : Fin 2) * 1 + 1
    omega
  | ⟨1, _⟩ =>
    have hi : (i 1).val < 1 := (i 1).isLt
    show win2_9.index t2_0 (1 : Fin 2) * 1 ≤ (i 1).val ∧ (i 1).val < win2_9.index t2_0 (1 : Fin 2) * 1 + 1
    omega

/-- The rate window: read through its one block, an array of that window's shape is itself. -/
theorem whole_rate (t : Fin cfg2.N) (G : Vec Ideal S1x1 .f32) :
    (cfg2.win 10).cut (grid2.coords t) G = ((cfg2.win 10).blk t).view.read (Elt Ideal) G := by
  have e0 : win2_10.index t (0 : Fin 2) = 0 := index_zero_10 t 0
  have e1 : win2_10.index t (1 : Fin 2) = 0 := index_zero_10 t 1
  funext j
  show G ((win2 10).xinj (grid2.coords t) j) = G (((cfg2.win 10).blk t).view.emb j)
  refine congrArg G (funext fun a => Fin.ext ?_)
  match a with
  | ⟨0, _⟩ => show (j 0).val = win2_10.index t (0 : Fin 2) * 1 + 1 * (j 0).val; omega
  | ⟨1, _⟩ => show (j 1).val = win2_10.index t (1 : Fin 2) * 1 + 1 * (j 1).val; omega

/-- and that block holds every index of the array. -/
theorem cover_rate (i : S1x1.Idx) :
    ∃ t : Fin cfg2.N, (cfg2.win 10).flush t = true ∧ i ∈ ((cfg2.win 10).blk t).view.set := by
  refine ⟨t2_0, flush2_10 _, ?_⟩
  have e0 : win2_10.index t2_0 (0 : Fin 2) = 0 := index_zero_10 t2_0 0
  have e1 : win2_10.index t2_0 (1 : Fin 2) = 0 := index_zero_10 t2_0 1
  show i ∈ ((View.whole main_v8_3).slice (win2_10.rect t2_0)).set
  rw [View.set_slice_whole, Rect.mem_set_unit]
  intro a
  match a with
  | ⟨0, _⟩ =>
    have hi : (i 0).val < 1 := (i 0).isLt
    show win2_10.index t2_0 (0 : Fin 2) * 1 ≤ (i 0).val ∧ (i 0).val < win2_10.index t2_0 (0 : Fin 2) * 1 + 1
    omega
  | ⟨1, _⟩ =>
    have hi : (i 1).val < 1 := (i 1).isLt
    show win2_10.index t2_0 (1 : Fin 2) * 1 ≤ (i 1).val ∧ (i 1).val < win2_10.index t2_0 (1 : Fin 2) * 1 + 1
    omega

/-! ## What the one point writes back, and the arrays the launch leaves -/

/-- The point writes back, to the hidden-state window, the reference's hidden stage of the entry arrays. -/
theorem flushed_hidden (c : Dev nD) (t : Fin cfg2.N) :
    (dat2 (F := Ideal) V c).flushed 7 t
      = ((cfg2.win 7).blk t).view.read (Elt Ideal) (hiddenOf (F := Ideal) (V c main_v7) (V c main_v5)) := by
  show (cfg2.win 7).cut (grid2.coords t) ((dat2 V c).after 7 t) = _
  rw [after2_7]
  unfold out2_7
  rw [View.canon_unit_zero zero_off]
  simp only [View.ld_unit_zero (S := S1x16384) zero_off, View.ld_unit_zero (S := S1x4096) zero_off]
  rw [blk_gates, blk_cp, pay_hidden]
  exact whole_hidden t _

/-- To the cell-state window, the cell stage. -/
theorem flushed_cell (c : Dev nD) (t : Fin cfg2.N) :
    (dat2 (F := Ideal) V c).flushed 8 t
      = ((cfg2.win 8).blk t).view.read (Elt Ideal) (cellOf (F := Ideal) (V c main_v7) (V c main_v5)) := by
  show (cfg2.win 8).cut (grid2.coords t) ((dat2 V c).after 8 t) = _
  rw [after2_8]
  unfold out2_8
  rw [View.canon_unit_zero zero_off]
  simp only [View.ld_unit_zero (S := S1x16384) zero_off, View.ld_unit_zero (S := S1x4096) zero_off]
  rw [blk_gates, blk_cp, pay_cell]
  exact whole_cell t _

/-- To the rate window, the rate stage of the hidden stage. -/
theorem flushed_rate (c : Dev nD) (b3 : (⟨S1, .f32⟩ : BufTy).Contents (Elt Ideal))
    (h3 : V c main_v3 = shapeCast S1x1 b3 shapeCasts_S1_S1x1) (t : Fin cfg2.N) :
    (dat2 (F := Ideal) V c).flushed 10 t
      = ((cfg2.win 10).blk t).view.read (Elt Ideal)
          (rateOf (F := Ideal) (hiddenOf (F := Ideal) (V c main_v7) (V c main_v5)) (V c main_arg12) b3 (V c main_arg1) (V c main_arg5)) := by
  show (cfg2.win 10).cut (grid2.coords t) ((dat2 V c).after 10 t) = _
  rw [after2_10]
  unfold out2_10
  rw [View.canon_unit_zero zero_off]
  simp only [View.ld_unit_zero (S := S1x16384) zero_off, View.ld_unit_zero (S := S1x4096) zero_off,
    View.ld_unit_zero (S := S1x1) zero_off]
  rw [blk_gates, blk_cp, blk_w3, blk_b3, blk_u, blk_apre, h3, pay_rate]
  exact whole_rate t _

/-- To the lagged-output window, the lag stage of that rate. -/
theorem flushed_lag (c : Dev nD) (b3 : (⟨S1, .f32⟩ : BufTy).Contents (Elt Ideal))
    (h3 : V c main_v3 = shapeCast S1x1 b3 shapeCasts_S1_S1x1) (t : Fin cfg2.N) :
    (dat2 (F := Ideal) V c).flushed 9 t
      = ((cfg2.win 9).blk t).view.read (Elt Ideal)
          (lagOf (F := Ideal) (rateOf (F := Ideal) (hiddenOf (F := Ideal) (V c main_v7) (V c main_v5)) (V c main_arg12) b3 (V c main_arg1) (V c main_arg5))
            (V c main_arg1) (V c main_arg4)) := by
  show (cfg2.win 9).cut (grid2.coords t) ((dat2 V c).after 9 t) = _
  rw [after2_9]
  unfold out2_9
  rw [View.canon_unit_zero zero_off]
  simp only [View.ld_unit_zero (S := S1x16384) zero_off, View.ld_unit_zero (S := S1x4096) zero_off,
    View.ld_unit_zero (S := S1x1) zero_off]
  rw [blk_gates, blk_cp, blk_w3, blk_b3, blk_u, blk_apre, blk_ypre, h3]
  unfold k2_pay6
  rw [pay_rate, pay_lag]
  exact whole_lag t _

/-- The new hidden state the third launch leaves is the reference's, of the launch's entry arrays. -/
theorem hidden_eq (c : Dev nD) :
    (dat2 (F := Ideal) V c).arrAt 7 cfg2.N = hiddenOf (F := Ideal) (V c main_v7) (V c main_v5) :=
  (dat2 (F := Ideal) V c).arrAt_eq_of_cover 7 _ (fun t _ => flushed_hidden V c t) cover_hidden

/-- The new cell state likewise. -/
theorem cell_eq (c : Dev nD) :
    (dat2 (F := Ideal) V c).arrAt 8 cfg2.N = cellOf (F := Ideal) (V c main_v7) (V c main_v5) :=
  (dat2 (F := Ideal) V c).arrAt_eq_of_cover 8 _ (fun t _ => flushed_cell V c t) cover_cell

/-- The blended rate, provided the bias window's array is the one-entry bias given a leading unit axis. -/
theorem rate_eq (c : Dev nD) (b3 : (⟨S1, .f32⟩ : BufTy).Contents (Elt Ideal))
    (h3 : V c main_v3 = shapeCast S1x1 b3 shapeCasts_S1_S1x1) :
    (dat2 (F := Ideal) V c).arrAt 10 cfg2.N
      = rateOf (F := Ideal) (hiddenOf (F := Ideal) (V c main_v7) (V c main_v5)) (V c main_arg12) b3 (V c main_arg1) (V c main_arg5) :=
  (dat2 (F := Ideal) V c).arrAt_eq_of_cover 10 _ (fun t _ => flushed_rate V c b3 h3 t) cover_rate

/-- The lagged output, under the same proviso. -/
theorem lag_eq (c : Dev nD) (b3 : (⟨S1, .f32⟩ : BufTy).Contents (Elt Ideal))
    (h3 : V c main_v3 = shapeCast S1x1 b3 shapeCasts_S1_S1x1) :
    (dat2 (F := Ideal) V c).arrAt 9 cfg2.N
      = lagOf (F := Ideal) (rateOf (F := Ideal) (hiddenOf (F := Ideal) (V c main_v7) (V c main_v5)) (V c main_arg12) b3 (V c main_arg1) (V c main_arg5))
          (V c main_arg1) (V c main_arg4) :=
  (dat2 (F := Ideal) V c).arrAt_eq_of_cover 9 _ (fun t _ => flushed_lag V c b3 h3 t) cover_lag

end Cert.KernelIdeal.CellRegion

end
-- ==== Proof.Boundaries.lean ====
/-
  The contents of the four result buffers at the end of the kernel's @main, unwound through its five segments:

    reshapes  →  launch 1 (z)  →  launch 2 (gates)  →  launch 3 (h', c', y1, a)  →  h' and c' given a leading unit axis.

  A launch changes only its own windows' arrays, and a host stretch only the buffers its operations write, so each
  array a launch reads is either the launch memory's argument, a reshape of one, or the array the launch before it
  left. Putting the three launches' values (each the reference's stage of that launch's entry arrays) one after the
  other gives every result as the reference's stages composed over the argument arrays.
-/
import proofs.«169435_j88622355185707_1_alg».proof.Proof.Gen.KernelIdeal.Frame
import proofs.«169435_j88622355185707_1_alg».proof.Proof.RefStages
import proofs.«169435_j88622355185707_1_alg».proof.Proof.DenseRegion
import proofs.«169435_j88622355185707_1_alg».proof.Proof.GatesRegion
import proofs.«169435_j88622355185707_1_alg».proof.Proof.CellRegion
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem Idealize.ShloMosaic.StableHlo
open Cert.RefStages
open Cert.ReferenceIdeal.Read (val_main_v4 val_main_v5 val_main_v6)

variable (m : (ℓ : Loc nD τ sig) → Buf (Elt Ideal) ℓ) (ρ : Dev nD → PrngReg)

/-! ## After the reshapes: the first launch's entry contents -/

/-- The four biases and the two previous states, each reshaped from its argument. -/
theorem b1_entry (c : Dev nD) : V1 m ρ c main_v0 = shapeCast S1x4096 (m ((c.tc : Thread nD τ).loc main_arg7)) shapeCasts_S4096_S1x4096 := by
  show StableHlo.after hostOps0 (W0 m ρ c) (Proc.devRef .tc main_v0) = _
  after_results
  rfl
theorem bih_entry (c : Dev nD) : V1 m ρ c main_v1 = shapeCast S1x16384 (m ((c.tc : Thread nD τ).loc main_arg9)) shapeCasts_S16384_S1x16384 := by
  show StableHlo.after hostOps0 (W0 m ρ c) (Proc.devRef .tc main_v1) = _
  after_results
  rfl
theorem bhh_entry (c : Dev nD) : V1 m ρ c main_v2 = shapeCast S1x16384 (m ((c.tc : Thread nD τ).loc main_arg11)) shapeCasts_S16384_S1x16384 := by
  show StableHlo.after hostOps0 (W0 m ρ c) (Proc.devRef .tc main_v2) = _
  after_results
  rfl
theorem b3_entry (c : Dev nD) : V1 m ρ c main_v3 = shapeCast S1x1 (m ((c.tc : Thread nD τ).loc main_arg13)) shapeCasts_S1_S1x1 := by
  show StableHlo.after hostOps0 (W0 m ρ c) (Proc.devRef .tc main_v3) = _
  after_results
  rfl
theorem hp_entry (c : Dev nD) : V1 m ρ c main_v4 = val_main_v5 (F := Ideal) (m ((c.tc : Thread nD τ).loc main_arg2)) := by
  show StableHlo.after hostOps0 (W0 m ρ c) (Proc.devRef .tc main_v4) = _
  after_results
  rfl
theorem cp_entry (c : Dev nD) : V1 m ρ c main_v5 = val_main_v6 (F := Ideal) (m ((c.tc : Thread nD τ).loc main_arg3)) := by
  show StableHlo.after hostOps0 (W0 m ρ c) (Proc.devRef .tc main_v5) = _
  after_results
  rfl

/-- An argument array no reshape writes is still the launch memory's. -/
theorem arg0_entry (c : Dev nD) : V1 m ρ c main_arg0 = (m ((c.tc : Thread nD τ).loc main_arg0)) := by
  show StableHlo.after hostOps0 (W0 m ρ c) (Proc.devRef .tc main_arg0) = _
  after_results
theorem arg1_entry (c : Dev nD) : V1 m ρ c main_arg1 = (m ((c.tc : Thread nD τ).loc main_arg1)) := by
  show StableHlo.after hostOps0 (W0 m ρ c) (Proc.devRef .tc main_arg1) = _
  after_results
theorem arg4_entry (c : Dev nD) : V1 m ρ c main_arg4 = (m ((c.tc : Thread nD τ).loc main_arg4)) := by
  show StableHlo.after hostOps0 (W0 m ρ c) (Proc.devRef .tc main_arg4) = _
  after_results
theorem arg5_entry (c : Dev nD) : V1 m ρ c main_arg5 = (m ((c.tc : Thread nD τ).loc main_arg5)) := by
  show StableHlo.after hostOps0 (W0 m ρ c) (Proc.devRef .tc main_arg5) = _
  after_results
theorem arg6_entry (c : Dev nD) : V1 m ρ c main_arg6 = (m ((c.tc : Thread nD τ).loc main_arg6)) := by
  show StableHlo.after hostOps0 (W0 m ρ c) (Proc.devRef .tc main_arg6) = _
  after_results
theorem arg8_entry (c : Dev nD) : V1 m ρ c main_arg8 = (m ((c.tc : Thread nD τ).loc main_arg8)) := by
  show StableHlo.after hostOps0 (W0 m ρ c) (Proc.devRef .tc main_arg8) = _
  after_results
theorem arg10_entry (c : Dev nD) : V1 m ρ c main_arg10 = (m ((c.tc : Thread nD τ).loc main_arg10)) := by
  show StableHlo.after hostOps0 (W0 m ρ c) (Proc.devRef .tc main_arg10) = _
  after_results
theorem arg12_entry (c : Dev nD) : V1 m ρ c main_arg12 = (m ((c.tc : Thread nD τ).loc main_arg12)) := by
  show StableHlo.after hostOps0 (W0 m ρ c) (Proc.devRef .tc main_arg12) = _
  after_results

/-! ## After the first launch -/

/-- The dense layer's output z, as the reference computes it from x, W1 and b1. -/
theorem z_after_first (c : Dev nD) :
    V2 m ρ c main_v6 = val_main_v4 (F := Ideal) (m ((c.tc : Thread nD τ).loc main_arg0)) (m ((c.tc : Thread nD τ).loc main_arg6)) (m ((c.tc : Thread nD τ).loc main_arg7)) := by
  have h := DenseRegion.array_eq (V1 m ρ) c (m ((c.tc : Thread nD τ).loc main_arg7)) (b1_entry m ρ c)
  rw [arg0_entry m ρ c, arg6_entry m ρ c] at h
  exact (hF0 m ρ c 3).symm.trans h

/-- What the first launch does not touch keeps its entry contents. -/
theorem hp_after_first (c : Dev nD) : V2 m ρ c main_v4 = V1 m ρ c main_v4 := W2_of_ne m ρ c main_v4 (by decide)
theorem wih_after_first (c : Dev nD) : V2 m ρ c main_arg8 = V1 m ρ c main_arg8 := W2_of_ne m ρ c main_arg8 (by decide)
theorem whh_after_first (c : Dev nD) : V2 m ρ c main_arg10 = V1 m ρ c main_arg10 := W2_of_ne m ρ c main_arg10 (by decide)
theorem bih_after_first (c : Dev nD) : V2 m ρ c main_v1 = V1 m ρ c main_v1 := W2_of_ne m ρ c main_v1 (by decide)
theorem bhh_after_first (c : Dev nD) : V2 m ρ c main_v2 = V1 m ρ c main_v2 := W2_of_ne m ρ c main_v2 (by decide)
theorem cp_after_first (c : Dev nD) : V2 m ρ c main_v5 = V1 m ρ c main_v5 := W2_of_ne m ρ c main_v5 (by decide)
theorem w3_after_first (c : Dev nD) : V2 m ρ c main_arg12 = V1 m ρ c main_arg12 := W2_of_ne m ρ c main_arg12 (by decide)
theorem b3_after_first (c : Dev nD) : V2 m ρ c main_v3 = V1 m ρ c main_v3 := W2_of_ne m ρ c main_v3 (by decide)
theorem u_after_first (c : Dev nD) : V2 m ρ c main_arg1 = V1 m ρ c main_arg1 := W2_of_ne m ρ c main_arg1 (by decide)
theorem ypre_after_first (c : Dev nD) : V2 m ρ c main_arg4 = V1 m ρ c main_arg4 := W2_of_ne m ρ c main_arg4 (by decide)
theorem apre_after_first (c : Dev nD) : V2 m ρ c main_arg5 = V1 m ρ c main_arg5 := W2_of_ne m ρ c main_arg5 (by decide)

/-! ## After the second launch -/

/-- The gate row, the reference's of all its arguments. -/
theorem gates_after_second (c : Dev nD) :
    V3 m ρ c main_v7 = gatesR (F := Ideal) (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have h := GatesRegion.array_eq (V2 m ρ) c (m ((c.tc : Thread nD τ).loc main_arg9)) (m ((c.tc : Thread nD τ).loc main_arg11))
    ((bih_after_first m ρ c).trans (bih_entry m ρ c)) ((bhh_after_first m ρ c).trans (bhh_entry m ρ c))
  rw [z_after_first m ρ c, hp_after_first m ρ c, hp_entry m ρ c, wih_after_first m ρ c, arg8_entry m ρ c,
    whh_after_first m ρ c, arg10_entry m ρ c] at h
  exact (hF1 m ρ c 6).symm.trans h

/-- What the second launch does not touch keeps what it held after the first. -/
theorem cp_after_second (c : Dev nD) : V3 m ρ c main_v5 = V2 m ρ c main_v5 := W3_of_ne m ρ c main_v5 (by decide)
theorem w3_after_second (c : Dev nD) : V3 m ρ c main_arg12 = V2 m ρ c main_arg12 := W3_of_ne m ρ c main_arg12 (by decide)
theorem b3_after_second (c : Dev nD) : V3 m ρ c main_v3 = V2 m ρ c main_v3 := W3_of_ne m ρ c main_v3 (by decide)
theorem u_after_second (c : Dev nD) : V3 m ρ c main_arg1 = V2 m ρ c main_arg1 := W3_of_ne m ρ c main_arg1 (by decide)
theorem ypre_after_second (c : Dev nD) : V3 m ρ c main_arg4 = V2 m ρ c main_arg4 := W3_of_ne m ρ c main_arg4 (by decide)
theorem apre_after_second (c : Dev nD) : V3 m ρ c main_arg5 = V2 m ρ c main_arg5 := W3_of_ne m ρ c main_arg5 (by decide)

/-- The third launch's other entry arrays, down to the launch memory. -/
theorem cp_third (c : Dev nD) : V3 m ρ c main_v5 = val_main_v6 (F := Ideal) (m ((c.tc : Thread nD τ).loc main_arg3)) :=
  (cp_after_second m ρ c).trans ((cp_after_first m ρ c).trans (cp_entry m ρ c))
theorem w3_third (c : Dev nD) : V3 m ρ c main_arg12 = (m ((c.tc : Thread nD τ).loc main_arg12)) :=
  (w3_after_second m ρ c).trans ((w3_after_first m ρ c).trans (arg12_entry m ρ c))
theorem b3_third (c : Dev nD) : V3 m ρ c main_v3 = shapeCast S1x1 (m ((c.tc : Thread nD τ).loc main_arg13)) shapeCasts_S1_S1x1 :=
  (b3_after_second m ρ c).trans ((b3_after_first m ρ c).trans (b3_entry m ρ c))
theorem u_third (c : Dev nD) : V3 m ρ c main_arg1 = (m ((c.tc : Thread nD τ).loc main_arg1)) :=
  (u_after_second m ρ c).trans ((u_after_first m ρ c).trans (arg1_entry m ρ c))
theorem ypre_third (c : Dev nD) : V3 m ρ c main_arg4 = (m ((c.tc : Thread nD τ).loc main_arg4)) :=
  (ypre_after_second m ρ c).trans ((ypre_after_first m ρ c).trans (arg4_entry m ρ c))
theorem apre_third (c : Dev nD) : V3 m ρ c main_arg5 = (m ((c.tc : Thread nD τ).loc main_arg5)) :=
  (apre_after_second m ρ c).trans ((apre_after_first m ρ c).trans (arg5_entry m ρ c))

/-! ## After the third launch, and the end of @main -/

/-- The gate row of the arguments, and the previous cell state, by name: what the last three stages are functions of. -/
abbrev gatesK (c : Dev nD) : (⟨Cert.ReferenceIdeal.S1x16384, .f32⟩ : BufTy).Contents (Elt Ideal) :=
  gatesR (F := Ideal) (m ((c.tc : Thread nD τ).loc main_arg0)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
abbrev cpK (c : Dev nD) : (⟨Cert.ReferenceIdeal.S1x4096, .f32⟩ : BufTy).Contents (Elt Ideal) :=
  val_main_v6 (F := Ideal) (m ((c.tc : Thread nD τ).loc main_arg3))
abbrev rateK (c : Dev nD) : (⟨Cert.ReferenceIdeal.S1x1, .f32⟩ : BufTy).Contents (Elt Ideal) :=
  rateOf (F := Ideal) (hiddenOf (F := Ideal) (gatesK m c) (cpK m c)) (m ((c.tc : Thread nD τ).loc main_arg12)) (m ((c.tc : Thread nD τ).loc main_arg13)) (m ((c.tc : Thread nD τ).loc main_arg1)) (m ((c.tc : Thread nD τ).loc main_arg5))

theorem hidden_after_third (c : Dev nD) :
    W4 m ρ c (Proc.devRef .tc main_v8_0) = hiddenOf (F := Ideal) (gatesK m c) (cpK m c) := by
  have h := CellRegion.hidden_eq (V3 m ρ) c
  rw [gates_after_second m ρ c, cp_third m ρ c] at h
  exact (W4_arr m ρ c 7).trans h

theorem cell_after_third (c : Dev nD) :
    W4 m ρ c (Proc.devRef .tc main_v8_1) = cellOf (F := Ideal) (gatesK m c) (cpK m c) := by
  have h := CellRegion.cell_eq (V3 m ρ) c
  rw [gates_after_second m ρ c, cp_third m ρ c] at h
  exact (W4_arr m ρ c 8).trans h

theorem rate_after_third (c : Dev nD) : W4 m ρ c (Proc.devRef .tc main_v8_3) = rateK m c := by
  have h := CellRegion.rate_eq (V3 m ρ) c (m ((c.tc : Thread nD τ).loc main_arg13)) (b3_third m ρ c)
  rw [gates_after_second m ρ c, cp_third m ρ c, w3_third m ρ c, u_third m ρ c, apre_third m ρ c] at h
  exact (W4_arr m ρ c 10).trans h

theorem lag_after_third (c : Dev nD) :
    W4 m ρ c (Proc.devRef .tc main_v8_2) = lagOf (F := Ideal) (rateK m c) (m ((c.tc : Thread nD τ).loc main_arg1)) (m ((c.tc : Thread nD τ).loc main_arg4)) := by
  have h := CellRegion.lag_eq (V3 m ρ) c (m ((c.tc : Thread nD τ).loc main_arg13)) (b3_third m ρ c)
  rw [gates_after_second m ρ c, cp_third m ρ c, w3_third m ρ c, u_third m ρ c, apre_third m ρ c, ypre_third m ρ c] at h
  exact (W4_arr m ρ c 9).trans h

/-- The last host stretch gives h' and c' their leading unit axis and writes neither y1 nor a. -/
theorem lag_at_end (c : Dev nD) :
    W5 m ρ c (Proc.devRef .tc main_v8_2) = lagOf (F := Ideal) (rateK m c) (m ((c.tc : Thread nD τ).loc main_arg1)) (m ((c.tc : Thread nD τ).loc main_arg4)) := by
  refine Eq.trans ?_ (lag_after_third m ρ c)
  show StableHlo.after hostOps3 (W4 m ρ c) (Proc.devRef .tc main_v8_2) = _
  after_results

theorem rate_at_end (c : Dev nD) : W5 m ρ c (Proc.devRef .tc main_v8_3) = rateK m c := by
  refine Eq.trans ?_ (rate_after_third m ρ c)
  show StableHlo.after hostOps3 (W4 m ρ c) (Proc.devRef .tc main_v8_3) = _
  after_results

theorem hidden_at_end (c : Dev nD) :
    W5 m ρ c (Proc.devRef .tc main_v9) = leadOf (F := Ideal) (hiddenOf (F := Ideal) (gatesK m c) (cpK m c)) := by
  refine Eq.trans ?_ (congrArg (leadOf (F := Ideal)) (hidden_after_third m ρ c))
  show StableHlo.after hostOps3 (W4 m ρ c) (Proc.devRef .tc main_v9) = _
  after_results
  rfl

theorem cell_at_end (c : Dev nD) :
    W5 m ρ c (Proc.devRef .tc main_v10) = leadOf (F := Ideal) (cellOf (F := Ideal) (gatesK m c) (cpK m c)) := by
  refine Eq.trans ?_ (congrArg (leadOf (F := Ideal)) (cell_after_third m ρ c))
  show StableHlo.after hostOps3 (W4 m ρ c) (Proc.devRef .tc main_v10) = _
  after_results
  rfl

end Cert.KernelIdeal.Boundaries

end
-- ==== Proof.lean ====
/-
  A kernel of three launches against its jnp reference, over the extended reals.

  The kernel computes, in turn, z = max (x·W1ᵀ + b1, 0) (16 blocks of 256 entries), the LSTM gate row
  ((z·W_ihᵀ + hp·W_hhᵀ) + b_ih) + b_hh (64 blocks of 256 entries), and in one block the new cell and hidden states
  c' = σ(f)·cp + σ(i)·tanh(g), h' = σ(o)·tanh(c'), the blended rate a = u·a_pre + (1 − u)·σ(h'·W3ᵀ + b3) and the lagged
  output y1 = a·u + (1 − a)·y_pre. The reference computes the same six values with whole-array operations. Read over
  the extended reals the two agree with no condition on the inputs: a change of float format is the identity, a matrix
  product into a zero accumulator and a lane sum of products are the finite sums the host's dot_general is, a tiling
  does not change an entry, the gate row's four terms are added in another order (addition of extended reals is
  commutative and associative), and the kernel's logistic is by definition 1 / (1 + exp(−v)), which is how the
  reference spells σ. No literal but 0.0 and 1.0 occurs on either side.

  The three frames are the generated ones (the reference's is its generated run with the results dropped). The
  idealization's two rewrites, a narrowing to bf16 and back removed around the lane product, are the rule's own
  statement. The value claim runs both programs: the kernel's launch with its result buffers kept at the last
  boundary's contents (LastBoundary), those contents unwound launch by launch to the reference's stages composed
  over the argument arrays (Boundaries, over DenseRegion, GatesRegion, CellRegion), and the reference's generated run
  read as the same stages composed (RefStages), the two sets of arguments agreeing.
-/
import proofs.«169435_j88622355185707_1_alg».proof.Defs
import proofs.«169435_j88622355185707_1_alg».proof.Proof.Gen.Kernel
import proofs.«169435_j88622355185707_1_alg».proof.Proof.Gen.Kernel.Skeleton
import proofs.«169435_j88622355185707_1_alg».proof.Proof.Gen.Kernel.Launch
import proofs.«169435_j88622355185707_1_alg».proof.Proof.Gen.Kernel.Points
import proofs.«169435_j88622355185707_1_alg».proof.Proof.Gen.Kernel.Frame
import proofs.«169435_j88622355185707_1_alg».proof.Proof.Gen.KernelIdeal
import proofs.«169435_j88622355185707_1_alg».proof.Proof.Gen.KernelIdeal.Skeleton
import proofs.«169435_j88622355185707_1_alg».proof.Proof.Gen.KernelIdeal.Launch
import proofs.«169435_j88622355185707_1_alg».proof.Proof.Gen.KernelIdeal.Points
import proofs.«169435_j88622355185707_1_alg».proof.Proof.Gen.KernelIdeal.Frame
import proofs.«169435_j88622355185707_1_alg».proof.Proof.Gen.ReferenceIdeal
import proofs.«169435_j88622355185707_1_alg».proof.Proof.Gen.Pre_finite_inputs
import proofs.«169435_j88622355185707_1_alg».proof.Proof.Gen.ReferenceIdeal.Run
import proofs.«169435_j88622355185707_1_alg».proof.Proof.Gen.ReferenceIdeal.Read
import proofs.«169435_j88622355185707_1_alg».proof.Proof.RefStages
import proofs.«169435_j88622355185707_1_alg».proof.Proof.LastBoundary
import proofs.«169435_j88622355185707_1_alg».proof.Proof.Boundaries
import Idealize.ShloMosaic.Adequacy
import Idealize.ShloMosaic.Init

set_option maxRecDepth 16384

noncomputable section

namespace Cert.Proof

open Idealize.ShloMosaic Idealize.ShloMosaic.TcCoe Idealize.SL.Sem
open Cert.RefStages Cert.KernelIdeal.Boundaries

section claims
variable [hKernel : Cert.Kernel.Facts] [hKernelIdeal : Cert.KernelIdeal.Facts] [hReferenceIdeal : Cert.ReferenceIdeal.Facts]
  [hPre_finite_inputs : Cert.Pre_finite_inputs.Facts]

/-- The word-level kernel runs to the end without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The two rewrites of the idealization: narrowing a row of 4096 f32 entries to bf16 and widening it back is the
    identity over the extended reals, and the rounding through bf16 at the word level. -/
theorem preserves : Cert.preserves_Kernel_KernelIdeal :=
  ⟨IdealRules.truncf_extf.statement Cert.KernelIdeal.S1x4096 .f32 .bf16,
   IdealRules.truncf_extf.statement Cert.KernelIdeal.S1x4096 .f32 .bf16⟩

/-- Run from memories that agree on the fourteen arguments, both programs end with (y1, h'[None], c'[None], a) at the
    reference's stages composed over those arguments. -/
theorem algebraic : Cert.algebraic_KernelIdeal_ReferenceIdeal := by
  intro m ρ m' ρ' _ hagree
  refine ⟨fun c => lagOf (F := Ideal) (rateK m c) (m ((c.tc : Thread Cert.KernelIdeal.nD Cert.KernelIdeal.τ).loc Cert.KernelIdeal.main_arg1)) (m ((c.tc : Thread Cert.KernelIdeal.nD Cert.KernelIdeal.τ).loc Cert.KernelIdeal.main_arg4)),
    fun c => leadOf (F := Ideal) (hiddenOf (F := Ideal) (gatesK m c) (cpK m c)),
    fun c => leadOf (F := Ideal) (cellOf (F := Ideal) (gatesK m c) (cpK m c)),
    fun c => rateK m c, ?_, ?_⟩
  · -- the kernel: each result buffer ends at the last boundary's contents, which are those stages
    refine (θ_run Cert.KernelIdeal.defs _ _).mono (fun r h c => ?_) (Cert.KernelIdeal.LastBoundary.run (F := Ideal) m ρ)
    obtain ⟨h0, h1, h2, h3, hargs⟩ := h c
    exact ⟨h0.trans (lag_at_end m ρ c), h1.trans (hidden_at_end m ρ c), h2.trans (cell_at_end m ρ c),
      h3.trans (rate_at_end m ρ c), hargs⟩
  · -- the reference: its run's terms are the same stages of its own arguments, which are the kernel's
    refine (θ_run Cert.ReferenceIdeal.defs _ _).mono (fun r h c => ?_) (Cert.ReferenceIdeal.Value.run (F := Ideal) m' ρ')
    obtain ⟨h0, h1, h2, h3, hargs⟩ := h c
    obtain ⟨e0, e1, e2, e3, e4, e5, e6, e7, e8, e9, e10, e11, e12, e13⟩ := hagree c
    refine ⟨h0.trans ?_, h1.trans ?_, h2.trans ?_, h3.trans ?_, hargs⟩
    · rw [Cert.ReferenceIdeal.Read.val_main_v63_eq, Cert.RefStages.lag_eq, e0, e1, e2, e3, e4, e5, e6, e7, e8, e9, e10, e11, e12, e13]
    · rw [Cert.ReferenceIdeal.Read.val_main_v64_eq, Cert.RefStages.hidden_lead_eq, e0, e2, e3, e6, e7, e8, e9, e10, e11]
    · refine (Cert.ReferenceIdeal.Read.val_main_v65_eq (F := Ideal) _ _ _ _ _ _ _ _ _).trans ?_
      rw [Cert.RefStages.cell_lead_eq, e0, e2, e3, e6, e7, e8, e9, e10, e11]
    · rw [Cert.ReferenceIdeal.Read.val_main_v58_eq, Cert.RefStages.rate_eq, e0, e1, e2, e3, e5, e6, e7, e8, e9, e10, e11, e12, e13]

end claims

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
